-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x64 : Shape := ⟨2, ![400000, 64]⟩
abbrev S4000000 : Shape := ⟨1, ![4000000]⟩
abbrev S_ : Shape := ⟨0, ![]⟩

class Facts : Prop where
  bcast_S_S400000x64 : S_.BroadcastsInDim S400000x64 (![] : Fin 0 → Fin S400000x64.rank)
  reducesTo_S400000x64_S_d0_1 : S400000x64.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S400000x64 .f32) (main_arg1 : IVec S4000000 32) (main_arg2 : IVec S4000000 32) (main_arg3 : FVec F S4000000 .f32) : IVec S_ 1 :=
  let main_v0 : FVec F S400000x64 .f32 := Host.absf main_arg0
  let main_cst : FVec F S_ .f32 := constant S_ .f32 0x7F800000#32
  let main_v1 : FVec F S400000x64 .f32 := broadcastInDim S400000x64 ![] bcast_S_S400000x64 main_cst
  let main_v2 : IVec S400000x64 1 := cmpf .olt main_v0 main_v1
  let main_c : IVec S_ 1 := constantI S_ 1 1#1
  let main_v3 : IVec S_ 1 := (fun x v => Host.reduce IntOp.andi x v reducesTo_S400000x64_S_d0_1 h_S_) main_v2 main_c
  let main_v4 : FVec F S4000000 .f32 := Host.absf main_arg3
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_c_2 : IVec S_ 32 := constantI S_ 32 0#32
  let main_v9 : IVec S4000000 32 := broadcastInDim S4000000 ![] bcast_S_S4000000 main_c_2
  let main_v10 : IVec S4000000 1 := cmpi .sge main_arg2 main_v9
  let main_c_3 : IVec S_ 32 := constantI S_ 32 400000#32
  let main_v11 : IVec S4000000 32 := broadcastInDim S4000000 ![] bcast_S_S4000000 main_c_3
  let main_v12 : IVec S4000000 1 := cmpi .slt main_arg2 main_v11
  let main_v13 : IVec S4000000 1 := andi main_v10 main_v12
  let main_c_4 : IVec S_ 1 := constantI S_ 1 1#1
  let main_v14 : IVec S_ 1 := (fun x v => Host.reduce IntOp.andi x v reducesTo_S4000000_S_d0 h_S_) main_v13 main_c_4
  let main_v15 : IVec S_ 1 := andi main_v8 main_v14
  main_v15
-- ==== Kernel.lean ====
abbrev S400000x64 : Shape := ⟨2, ![400000, 64]⟩
abbrev S4000000 : Shape := ⟨1, ![4000000]⟩
abbrev S_ : Shape := ⟨0, ![]⟩
abbrev S4005888 : Shape := ⟨1, ![4005888]⟩
abbrev S4005888x1 : Shape := ⟨2, ![4005888, 1]⟩
abbrev S1 : Shape := ⟨1, ![1]⟩
abbrev S1x1 : Shape := ⟨2, ![1, 1]⟩
abbrev S4005888x64 : Shape := ⟨2, ![4005888, 64]⟩
abbrev S8192x1 : Shape := ⟨2, ![8192, 1]⟩
abbrev S8192x64 : Shape := ⟨2, ![8192, 64]⟩
abbrev S8000x64 : Shape := ⟨2, ![8000, 64]⟩

abbrev nBuf : Space → Nat
  | .hbm => 101
  | .vmem => 36
  | .smem => 0
  | _ => 0

abbrev bufTy : (tb : Table) → Fin (tcTables nBuf tb) → BufTy
  | .hbm, ⟨0, _⟩ => ⟨S400000x64, .f32⟩
  | .hbm, ⟨1, _⟩ => ⟨S4000000, .i32⟩
  | .hbm, ⟨2, _⟩ => ⟨S4000000, .i32⟩
  | .hbm, ⟨3, _⟩ => ⟨S4000000, .f32⟩
  | .hbm, ⟨4, _⟩ => ⟨S_, .i32⟩
  | .hbm, ⟨5, _⟩ => ⟨S_, .i32⟩
  | .hbm, ⟨6, _⟩ => ⟨S4005888, .i32⟩
  | .hbm, ⟨7, _⟩ => ⟨S_, .i32⟩
  | .hbm, ⟨8, _⟩ => ⟨S_, .i32⟩
  | .hbm, ⟨9, _⟩ => ⟨S4005888, .i32⟩
  | .hbm, ⟨10, _⟩ => ⟨S_, .i32⟩
  | .hbm, ⟨11, _⟩ => ⟨S_, .f32⟩
  | .hbm, ⟨12, _⟩ => ⟨S4005888, .f32⟩
  | .hbm, ⟨13, _⟩ => ⟨S4005888x1, .f32⟩
  | .hbm, ⟨14, _⟩ => ⟨S_, .i32⟩
  | .hbm, ⟨15, _⟩ => ⟨S4005888, .i32⟩
  | .hbm, ⟨16, _⟩ => ⟨S4005888, .i1⟩
  | .hbm, ⟨17, _⟩ => ⟨S_, .i32⟩
  | .hbm, ⟨18, _⟩ => ⟨S4005888, .i32⟩
  | .hbm, ⟨19, _⟩ => ⟨S4005888, .i32⟩
  | .hbm, ⟨20, _⟩ => ⟨S4005888, .i32⟩
  | .hbm, ⟨21, _⟩ => ⟨S4005888x1, .i32⟩
  | .hbm, ⟨22, _⟩ => ⟨S1, .i32⟩
  | .hbm, ⟨23, _⟩ => ⟨S_, .i32⟩
  | .hbm, ⟨24, _⟩ => ⟨S4005888x1, .i32⟩
  | .hbm, ⟨25, _⟩ => ⟨S4005888x1, .i1⟩
  | .hbm, ⟨26, _⟩ => ⟨S1x1, .i32⟩
  | .hbm, ⟨27, _⟩ => ⟨S4005888x1, .i32⟩
  | .hbm, ⟨28, _⟩ => ⟨S4005888x1, .i1⟩
  | .hbm, ⟨29, _⟩ => ⟨S4005888x1, .i1⟩
  | .hbm, ⟨30, _⟩ => ⟨S_, .i1⟩
  | .hbm, ⟨31, _⟩ => ⟨S4005888, .i1⟩
  | .hbm, ⟨32, _⟩ => ⟨S4005888x64, .f32⟩
  | .hbm, ⟨33, _⟩ => ⟨S4005888x64, .i1⟩
  | .hbm, ⟨34, _⟩ => ⟨S_, .f32⟩
  | .hbm, ⟨35, _⟩ => ⟨S4005888x64, .f32⟩
  | .hbm, ⟨36, _⟩ => ⟨S4005888x64, .f32⟩
  | .hbm, ⟨37, _⟩ => ⟨S4005888x64, .f32⟩
  | .hbm, ⟨38, _⟩ => ⟨S_, .f32⟩
  | .hbm, ⟨39, _⟩ => ⟨S400000x64, .f32⟩
  | .hbm, ⟨40, _⟩ => ⟨S4005888x1, .i32⟩
  | .hbm, ⟨41, _⟩ => ⟨S400000x64, .f32⟩
  | .hbm, ⟨42, _⟩ => ⟨S400000x64, .f32⟩
  | .hbm, ⟨43, _⟩ => ⟨S_, .i32⟩
  | .hbm, ⟨44, _⟩ => ⟨S4005888, .i32⟩
  | .hbm, ⟨45, _⟩ => ⟨S4005888, .i1⟩
  | .hbm, ⟨46, _⟩ => ⟨S_, .i32⟩
  | .hbm, ⟨47, _⟩ => ⟨S4005888, .i32⟩
  | .hbm, ⟨48, _⟩ => ⟨S4005888, .i32⟩
  | .hbm, ⟨49, _⟩ => ⟨S4005888, .i32⟩
  | .hbm, ⟨50, _⟩ => ⟨S4005888x1, .i32⟩
  | .hbm, ⟨51, _⟩ => ⟨S1, .i32⟩
  | .hbm, ⟨52, _⟩ => ⟨S_, .i32⟩
  | .hbm, ⟨53, _⟩ => ⟨S4005888x1, .i32⟩
  | .hbm, ⟨54, _⟩ => ⟨S4005888x1, .i1⟩
  | .hbm, ⟨55, _⟩ => ⟨S1x1, .i32⟩
  | .hbm, ⟨56, _⟩ => ⟨S4005888x1, .i32⟩
  | .hbm, ⟨57, _⟩ => ⟨S4005888x1, .i1⟩
  | .hbm, ⟨58, _⟩ => ⟨S4005888x1, .i1⟩
  | .hbm, ⟨59, _⟩ => ⟨S_, .i1⟩
  | .hbm, ⟨60, _⟩ => ⟨S4005888, .i1⟩
  | .hbm, ⟨61, _⟩ => ⟨S4005888x64, .f32⟩
  | .hbm, ⟨62, _⟩ => ⟨S4005888x64, .i1⟩
  | .hbm, ⟨63, _⟩ => ⟨S_, .f32⟩
  | .hbm, ⟨64, _⟩ => ⟨S4005888x64, .f32⟩
  | .hbm, ⟨65, _⟩ => ⟨S4005888x64, .f32⟩
  | .hbm, ⟨66, _⟩ => ⟨S4005888x64, .f32⟩
  | .hbm, ⟨67, _⟩ => ⟨S_, .f32⟩
  | .hbm, ⟨68, _⟩ => ⟨S400000x64, .f32⟩
  | .hbm, ⟨69, _⟩ => ⟨S4005888x1, .i32⟩
  | .hbm, ⟨70, _⟩ => ⟨S400000x64, .f32⟩
  | .hbm, ⟨71, _⟩ => ⟨S400000x64, .f32⟩
  | .hbm, ⟨72, _⟩ => ⟨S_, .i32⟩
  | .hbm, ⟨73, _⟩ => ⟨S4005888, .i32⟩
  | .hbm, ⟨74, _⟩ => ⟨S4005888, .i1⟩
  | .hbm, ⟨75, _⟩ => ⟨S_, .i32⟩
  | .hbm, ⟨76, _⟩ => ⟨S4005888, .i32⟩
  | .hbm, ⟨77, _⟩ => ⟨S4005888, .i32⟩
  | .hbm, ⟨78, _⟩ => ⟨S4005888, .i32⟩
  | .hbm, ⟨79, _⟩ => ⟨S4005888x1, .i32⟩
  | .hbm, ⟨80, _⟩ => ⟨S1, .i32⟩
  | .hbm, ⟨81, _⟩ => ⟨S_, .i32⟩
  | .hbm, ⟨82, _⟩ => ⟨S4005888x1, .i32⟩
  | .hbm, ⟨83, _⟩ => ⟨S4005888x1, .i1⟩
  | .hbm, ⟨84, _⟩ => ⟨S1x1, .i32⟩
  | .hbm, ⟨85, _⟩ => ⟨S4005888x1, .i32⟩
  | .hbm, ⟨86, _⟩ => ⟨S4005888x1, .i1⟩
  | .hbm, ⟨87, _⟩ => ⟨S4005888x1, .i1⟩
  | .hbm, ⟨88, _⟩ => ⟨S_, .i1⟩
  | .hbm, ⟨89, _⟩ => ⟨S4005888, .i1⟩
  | .hbm, ⟨90, _⟩ => ⟨S4005888x64, .f32⟩
  | .hbm, ⟨91, _⟩ => ⟨S4005888x64, .i1⟩
  | .hbm, ⟨92, _⟩ => ⟨S_, .f32⟩
  | .hbm, ⟨93, _⟩ => ⟨S4005888x64, .f32⟩
  | .hbm, ⟨94, _⟩ => ⟨S4005888x64, .f32⟩
  | .hbm, ⟨95, _⟩ => ⟨S4005888x64, .f32⟩
  | .hbm, ⟨96, _⟩ => ⟨S_, .f32⟩
  | .hbm, ⟨97, _⟩ => ⟨S400000x64, .f32⟩
  | .hbm, ⟨98, _⟩ => ⟨S4005888x1, .i32⟩
  | .hbm, ⟨99, _⟩ => ⟨S400000x64, .f32⟩
  | .hbm, ⟨100, _⟩ => ⟨S400000x64, .f32⟩
  | .local _ .vmem, ⟨0, _⟩ => ⟨S8192x1, .f32⟩
  | .local _ .vmem, ⟨1, _⟩ => ⟨S8192x1, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8192x1, .f32⟩
  | .local _ .vmem, ⟨13, _⟩ => ⟨S8192x1, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8192x1, .f32⟩
  | .local _ .vmem, ⟨25, _⟩ => ⟨S8192x1, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S8000x64, .f32⟩
  | .local _ .vmem, ⟨31, _⟩ => ⟨S8000x64, .f32⟩
  | .local _ .vmem, ⟨32, _⟩ => ⟨S8000x64, .f32⟩
  | .local _ .vmem, ⟨33, _⟩ => ⟨S8000x64, .f32⟩
  | .local _ .vmem, ⟨34, _⟩ => ⟨S8000x64, .f32⟩
  | .local _ .vmem, ⟨35, _⟩ => ⟨S8000x64, .f32⟩
  | _, _ => ⟨S400000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_call3_c : Ref sig .tc := ⟨.hbm, 14, rfl⟩
abbrev main_call3_v0 : Ref sig .tc := ⟨.hbm, 15, rfl⟩
abbrev main_call3_v1 : Ref sig .tc := ⟨.hbm, 16, rfl⟩
abbrev main_call3_c_0 : Ref sig .tc := ⟨.hbm, 17, rfl⟩
abbrev main_call3_v2 : Ref sig .tc := ⟨.hbm, 18, rfl⟩
abbrev main_call3_v3 : Ref sig .tc := ⟨.hbm, 19, rfl⟩
abbrev main_call3_v4 : Ref sig .tc := ⟨.hbm, 20, rfl⟩
abbrev main_call3_v5 : Ref sig .tc := ⟨.hbm, 21, rfl⟩
abbrev main_call3_c_1 : Ref sig .tc := ⟨.hbm, 22, rfl⟩
abbrev main_call3_c_2 : Ref sig .tc := ⟨.hbm, 23, rfl⟩
abbrev main_call3_v6 : Ref sig .tc := ⟨.hbm, 24, rfl⟩
abbrev main_call3_v7 : Ref sig .tc := ⟨.hbm, 25, rfl⟩
abbrev main_call3_v8 : Ref sig .tc := ⟨.hbm, 26, rfl⟩
abbrev main_call3_v9 : Ref sig .tc := ⟨.hbm, 27, rfl⟩
abbrev main_call3_v10 : Ref sig .tc := ⟨.hbm, 28, rfl⟩
abbrev main_call3_v11 : Ref sig .tc := ⟨.hbm, 29, rfl⟩
abbrev main_call3_c_3 : Ref sig .tc := ⟨.hbm, 30, rfl⟩
abbrev main_call3_v12 : Ref sig .tc := ⟨.hbm, 31, rfl⟩
abbrev main_call3_v13 : Ref sig .tc := ⟨.hbm, 32, rfl⟩
abbrev main_call3_v14 : Ref sig .tc := ⟨.hbm, 33, rfl⟩
abbrev main_call3_cst : Ref sig .tc := ⟨.hbm, 34, rfl⟩
abbrev main_call3_v15 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_call4_c : Ref sig .tc := ⟨.hbm, 43, rfl⟩
abbrev main_call4_v0 : Ref sig .tc := ⟨.hbm, 44, rfl⟩
abbrev main_call4_v1 : Ref sig .tc := ⟨.hbm, 45, rfl⟩
abbrev main_call4_c_0 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_c_1 : Ref sig .tc := ⟨.hbm, 51, rfl⟩
abbrev main_call4_c_2 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_3 : Ref sig .tc := ⟨.hbm, 59, rfl⟩
abbrev main_call4_v12 : Ref sig .tc := ⟨.hbm, 60, rfl⟩
abbrev main_call4_v13 : Ref sig .tc := ⟨.hbm, 61, rfl⟩
abbrev main_call4_v14 : Ref sig .tc := ⟨.hbm, 62, rfl⟩
abbrev main_call4_cst : Ref sig .tc := ⟨.hbm, 63, rfl⟩
abbrev main_call4_v15 : Ref sig .tc := ⟨.hbm, 64, rfl⟩
abbrev main_v10 : Ref sig .tc := ⟨.hbm, 65, rfl⟩
abbrev main_v11 : Ref sig .tc := ⟨.hbm, 66, rfl⟩
abbrev main_cst_2 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_v14 : Ref sig .tc := ⟨.hbm, 91, rfl⟩
abbrev main_call5_cst : Ref sig .tc := ⟨.hbm, 92, rfl⟩
abbrev main_call5_v15 : Ref sig .tc := ⟨.hbm, 93, rfl⟩
abbrev main_v16 : Ref sig .tc := ⟨.hbm, 94, rfl⟩
abbrev main_v17 : Ref sig .tc := ⟨.hbm, 95, rfl⟩
abbrev main_cst_3 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![489], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![489], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  pads_S4000000_S4005888_058880 : S4000000.Pads (![0] : Fin 1 → Nat) ![5888] ![0] S4005888
  h_S_ : 0 < S_.numel
  shapeCasts_S4005888_S4005888x1 : S4005888.ShapeCasts S4005888x1
  bcast_S_S4005888 : S_.BroadcastsInDim S4005888 (![] : Fin 0 → Fin S4005888.rank)
  bcast_S4005888_S4005888x1_0 : S4005888.BroadcastsInDim S4005888x1 (![0] : Fin 1 → Fin S4005888x1.rank)
  bcast_S_S4005888x1 : S_.BroadcastsInDim S4005888x1 (![] : Fin 0 → Fin S4005888x1.rank)
  bcast_S1_S1x1_1 : S1.BroadcastsInDim S1x1 (![1] : Fin 1 → Fin S1x1.rank)
  bcast_S1x1_S4005888x1_0_1 : S1x1.BroadcastsInDim S4005888x1 (![0, 1] : Fin 2 → Fin S4005888x1.rank)
  reducesTo_S4005888x1_S4005888_d1 : S4005888x1.ReducesTo [1] S4005888
  bcast_S4005888_S4005888x64_0 : S4005888.BroadcastsInDim S4005888x64 (![0] : Fin 1 → Fin S4005888x64.rank)
  bcast_S_S4005888x64 : S_.BroadcastsInDim S4005888x64 (![] : Fin 0 → Fin S4005888x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S400000x64 : S_.BroadcastsInDim S400000x64 (![] : Fin 0 → Fin S400000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  gather_S400000x64_S4005888x1_S4005888x64_1_0_n_n_0_1_164_wf : GatherDims.WF S400000x64 S4005888x1 S4005888x64 [1] [0] [] [0] [] 1 ![1, 64]
  scatter_S400000x64_S4005888x1_S4005888x64_1_0_0_1_wf : ScatterDims.WF S400000x64 S4005888x1 S4005888x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S4005888x1.size a
  hwx0_0 : ∀ i : grid0.Coords, EltTy.bits .f32 = 32 ∨ (Rect.block (s := S4005888x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S4005888x64.size a
  hwx0_1 : ∀ i : grid0.Coords, EltTy.bits .f32 = 32 ∨ (Rect.block (s := S4005888x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S4005888x64.size a
  hwx0_2 : ∀ i : grid0.Coords, EltTy.bits .f32 = 32 ∨ (Rect.block (s := S4005888x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S400000x64.size a
  hwx1_0 : ∀ i : grid1.Coords, EltTy.bits .f32 = 32 ∨ (Rect.block (s := S400000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S400000x64.size a
  hwx1_1 : ∀ i : grid1.Coords, EltTy.bits .f32 = 32 ∨ (Rect.block (s := S400000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S400000x64.size a
  hwx1_2 : ∀ i : grid1.Coords, EltTy.bits .f32 = 32 ∨ (Rect.block (s := S400000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x1.size a ≤ S4005888x1.size a
  hwx2_0 : ∀ i : grid2.Coords, EltTy.bits .f32 = 32 ∨ (Rect.block (s := S4005888x1) S8192x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S4005888x64.size a
  hwx2_1 : ∀ i : grid2.Coords, EltTy.bits .f32 = 32 ∨ (Rect.block (s := S4005888x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S4005888x64.size a
  hwx2_2 : ∀ i : grid2.Coords, EltTy.bits .f32 = 32 ∨ (Rect.block (s := S4005888x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S400000x64.size a
  hwx3_0 : ∀ i : grid3.Coords, EltTy.bits .f32 = 32 ∨ (Rect.block (s := S400000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S400000x64.size a
  hwx3_1 : ∀ i : grid3.Coords, EltTy.bits .f32 = 32 ∨ (Rect.block (s := S400000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S400000x64.size a
  hwx3_2 : ∀ i : grid3.Coords, EltTy.bits .f32 = 32 ∨ (Rect.block (s := S400000x64) S8000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x1.size a ≤ S4005888x1.size a
  hwx4_0 : ∀ i : grid4.Coords, EltTy.bits .f32 = 32 ∨ (Rect.block (s := S4005888x1) S8192x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S4005888x64.size a
  hwx4_1 : ∀ i : grid4.Coords, EltTy.bits .f32 = 32 ∨ (Rect.block (s := S4005888x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S4005888x64.size a
  hwx4_2 : ∀ i : grid4.Coords, EltTy.bits .f32 = 32 ∨ (Rect.block (s := S4005888x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S400000x64.size a
  hwx5_0 : ∀ i : grid5.Coords, EltTy.bits .f32 = 32 ∨ (Rect.block (s := S400000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x64.size a ≤ S400000x64.size a
  hwx5_1 : ∀ i : grid5.Coords, EltTy.bits .f32 = 32 ∨ (Rect.block (s := S400000x64) S8000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S400000x64.size a
  hwx5_2 : ∀ i : grid5.Coords, EltTy.bits .f32 = 32 ∨ (Rect.block (s := S400000x64) S8000x64.size (cc5_transform_2 i) (hinb5_2 i)).WholeWords (EltTy.packing .f32)

variable [Facts₀]

def gather_S400000x64_S4005888x1_S4005888x64_1_0_n_n_0_1_164 : GatherDims S400000x64 S4005888x1 S4005888x64 where
  offsetDims := [1]
  collapsedSliceDims := [0]
  operandBatchingDims := []
  startIndicesBatchingDims := []
  startIndexMap := [0]
  indexVectorDim := 1
  sliceSizes := ![1, 64]
  wf := gather_S400000x64_S4005888x1_S4005888x64_1_0_n_n_0_1_164_wf
def scatter_S400000x64_S4005888x1_S4005888x64_1_0_0_1 : ScatterDims S400000x64 S4005888x1 S4005888x64 where
  updateWindowDims := [1]
  insertedWindowDims := [0]
  scatterDimsToOperandDims := [0]
  indexVectorDim := 1
  wf := scatter_S400000x64_S4005888x1_S4005888x64_1_0_0_1_wf

abbrev win0_0 : Pipeline.Window sig grid0 :=
  Pipeline.Window.ofSpec (Memref.whole main_v3) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S8192x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S8192x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v17) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v15) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S8000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21) S8000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where
  halias1_2 : Pipeline.Aliased win1 0 2
  halias3_2 : Pipeline.Aliased win3 0 2
  halias5_2 : Pipeline.Aliased win5 0 2

variable [Facts]
-- ==== ReferenceIdeal.lean ====
abbrev S400000x64 : Shape := ⟨2, ![400000, 64]⟩
abbrev S4000000 : Shape := ⟨1, ![4000000]⟩
abbrev S4000000x1 : Shape := ⟨2, ![4000000, 1]⟩
abbrev S_ : Shape := ⟨0, ![]⟩
abbrev S4000000x64 : Shape := ⟨2, ![4000000, 64]⟩

abbrev nBuf : Space → Nat
  | .hbm => 58
  | .vmem => 0
  | .smem => 0
  | _ => 0

abbrev bufTy : (tb : Table) → Fin (tcTables nBuf tb) → BufTy
  | .hbm, ⟨0, _⟩ => ⟨S400000x64, .f32⟩
  | .hbm, ⟨1, _⟩ => ⟨S4000000, .i32⟩
  | .hbm, ⟨2, _⟩ => ⟨S4000000, .i32⟩
  | .hbm, ⟨3, _⟩ => ⟨S4000000, .f32⟩
  | .hbm, ⟨4, _⟩ => ⟨S4000000x1, .f32⟩
  | .hbm, ⟨5, _⟩ => ⟨S_, .i32⟩
  | .hbm, ⟨6, _⟩ => ⟨S4000000, .i32⟩
  | .hbm, ⟨7, _⟩ => ⟨S4000000, .i1⟩
  | .hbm, ⟨8, _⟩ => ⟨S_, .i32⟩
  | .hbm, ⟨9, _⟩ => ⟨S4000000, .i32⟩
  | .hbm, ⟨10, _⟩ => ⟨S4000000, .i32⟩
  | .hbm, ⟨11, _⟩ => ⟨S4000000, .i32⟩
  | .hbm, ⟨12, _⟩ => ⟨S4000000x1, .i32⟩
  | .hbm, ⟨13, _⟩ => ⟨S4000000x64, .f32⟩
  | .hbm, ⟨14, _⟩ => ⟨S4000000x64, .f32⟩
  | .hbm, ⟨15, _⟩ => ⟨S4000000x64, .f32⟩
  | .hbm, ⟨16, _⟩ => ⟨S_, .f32⟩
  | .hbm, ⟨17, _⟩ => ⟨S400000x64, .f32⟩
  | .hbm, ⟨18, _⟩ => ⟨S4000000x1, .i32⟩
  | .hbm, ⟨19, _⟩ => ⟨S400000x64, .f32⟩
  | .hbm, ⟨20, _⟩ => ⟨S400000x64, .f32⟩
  | .hbm, ⟨21, _⟩ => ⟨S4000000x1, .f32⟩
  | .hbm, ⟨22, _⟩ => ⟨S_, .i32⟩
  | .hbm, ⟨23, _⟩ => ⟨S4000000, .i32⟩
  | .hbm, ⟨24, _⟩ => ⟨S4000000, .i1⟩
  | .hbm, ⟨25, _⟩ => ⟨S_, .i32⟩
  | .hbm, ⟨26, _⟩ => ⟨S4000000, .i32⟩
  | .hbm, ⟨27, _⟩ => ⟨S4000000, .i32⟩
  | .hbm, ⟨28, _⟩ => ⟨S4000000, .i32⟩
  | .hbm, ⟨29, _⟩ => ⟨S4000000x1, .i32⟩
  | .hbm, ⟨30, _⟩ => ⟨S4000000x64, .f32⟩
  | .hbm, ⟨31, _⟩ => ⟨S4000000x64, .f32⟩
  | .hbm, ⟨32, _⟩ => ⟨S4000000x64, .f32⟩
  | .hbm, ⟨33, _⟩ => ⟨S_, .f32⟩
  | .hbm, ⟨34, _⟩ => ⟨S400000x64, .f32⟩
  | .hbm, ⟨35, _⟩ => ⟨S4000000x1, .i32⟩
  | .hbm, ⟨36, _⟩ => ⟨S400000x64, .f32⟩
  | .hbm, ⟨37, _⟩ => ⟨S400000x64, .f32⟩
  | .hbm, ⟨38, _⟩ => ⟨S4000000x1, .f32⟩
  | .hbm, ⟨39, _⟩ => ⟨S_, .i32⟩
  | .hbm, ⟨40, _⟩ => ⟨S4000000, .i32⟩
  | .hbm, ⟨41, _⟩ => ⟨S4000000, .i1⟩
  | .hbm, ⟨42, _⟩ => ⟨S_, .i32⟩
  | .hbm, ⟨43, _⟩ => ⟨S4000000, .i32⟩
  | .hbm, ⟨44, _⟩ => ⟨S4000000, .i32⟩
  | .hbm, ⟨45, _⟩ => ⟨S4000000, .i32⟩
  | .hbm, ⟨46, _⟩ => ⟨S4000000x1, .i32⟩
  | .hbm, ⟨47, _⟩ => ⟨S4000000x64, .f32⟩
  | .hbm, ⟨48, _⟩ => ⟨S4000000x64, .f32⟩
  | .hbm, ⟨49, _⟩ => ⟨S4000000x64, .f32⟩
  | .hbm, ⟨50, _⟩ => ⟨S_, .f32⟩
  | .hbm, ⟨51, _⟩ => ⟨S400000x64, .f32⟩
  | .hbm, ⟨52, _⟩ => ⟨S4000000x1, .i32⟩
  | .hbm, ⟨53, _⟩ => ⟨S400000x64, .f32⟩
  | .hbm, ⟨54, _⟩ => ⟨S400000x64, .f32⟩
  | .hbm, ⟨55, _⟩ => ⟨S_, .f32⟩
  | .hbm, ⟨56, _⟩ => ⟨S400000x64, .f32⟩
  | .hbm, ⟨57, _⟩ => ⟨S400000x64, .f32⟩
  | _, _ => ⟨S400000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S400000x64 : S_.BroadcastsInDim S400000x64 (![] : Fin 0 → Fin S400000x64.rank)
  gather_S400000x64_S4000000x1_S4000000x64_1_0_n_n_0_1_164_wf : GatherDims.WF S400000x64 S4000000x1 S4000000x64 [1] [0] [] [0] [] 1 ![1, 64]
  scatter_S400000x64_S4000000x1_S4000000x64_1_0_0_1_wf : ScatterDims.WF S400000x64 S4000000x1 S4000000x64 [1] [0] [0] 1

variable [Facts₀]

def gather_S400000x64_S4000000x1_S4000000x64_1_0_n_n_0_1_164 : GatherDims S400000x64 S4000000x1 S4000000x64 where
  offsetDims := [1]
  collapsedSliceDims := [0]
  operandBatchingDims := []
  startIndicesBatchingDims := []
  startIndexMap := [0]
  indexVectorDim := 1
  sliceSizes := ![1, 64]
  wf := gather_S400000x64_S4000000x1_S4000000x64_1_0_n_n_0_1_164_wf
def scatter_S400000x64_S4000000x1_S4000000x64_1_0_0_1 : ScatterDims S400000x64 S4000000x1 S4000000x64 where
  updateWindowDims := [1]
  insertedWindowDims := [0]
  scatterDimsToOperandDims := [0]
  indexVectorDim := 1
  wf := scatter_S400000x64_S4000000x1_S4000000x64_1_0_0_1_wf

class Facts : Prop extends Facts₀ where

variable [Facts]
-- ==== Proof.Fns.lean ====
/-
  The three whole-array functions the six calls compute, at the extended reals.

  A message pass scales entry (e, d) of the gathered rows by the weight of edge e. An accumulate pass adds two node
  tables entry by entry. The last accumulate pass also multiplies the sum by the constant one quarter.
-/
import proofs.«409824_j14431090114657_1_alg».proof.KernelIdeal
import Idealize.ShloMosaic.PureOps.Ideal
import Idealize.ShloMosaic.Lib.ValueIdx

noncomputable section

namespace Cert.KernelIdeal.Fns

open Idealize.ShloMosaic Idealize.ShloMosaic.ValueIdx Cert.KernelIdeal

/-- The scaled messages: entry (e, d) of the gathered rows times the weight of edge e. -/
def scaled (w : S4005888x1.Idx → EReal) (g : S4005888x64.Idx → EReal) : S4005888x64.Idx → EReal :=
  fun i => g i * w (ix2 (i 0) (0 : Fin 1))

/-- Two node tables added entry by entry. -/
def summed (a x : S400000x64.Idx → EReal) : S400000x64.Idx → EReal := fun i => a i + x i

/-- Two node tables added entry by entry, the sum times the constant one quarter (kept as its bit pattern). -/
def quartered (a x : S400000x64.Idx → EReal) : S400000x64.Idx → EReal :=
  fun i => (a i + x i) * Ideal.ofBits .f32 0x3E800000#32

end Cert.KernelIdeal.Fns

end
-- ==== Proof.LibTypedRef.lean ====
/-
  A value written through a typed reference and read back through it is the value: the two transports along the
  reference's type equation cancel.
-/
import Idealize.ShloMosaic.Lib.StableHlo

noncomputable section

namespace Cert.LibTypedRef

open Idealize.ShloMosaic Idealize.ShloMosaic.StableHlo

theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibTypedRef

end
-- ==== Proof.HostK.lean ====
/-
  The host operations between the calls, as whole-array functions and as facts about the buffers after each stretch.

  Before the first call the edge lists are padded from 4000000 to 4005888 entries (rows and columns with index 0,
  weights with the value 0) and the weights are laid out as a column. Before each message call the current node table
  is taken at the padded column indices: a negative index is wrapped by the table's extent, an index that is then
  outside the table yields the filler pattern, any other the table's row. After each message call the scaled messages
  are summed into a table of zeros at the padded row indices, and the running sum is copied into the buffer the next
  accumulate call overwrites.
-/
import proofs.«409824_j14431090114657_1_alg».proof.Proof.Gen.KernelIdeal.Launch
import proofs.«409824_j14431090114657_1_alg».proof.Proof.Fns
import proofs.«409824_j14431090114657_1_alg».proof.Proof.LibTypedRef
import Idealize.ShloMosaic.Lib.StableHlo.Run
import Idealize.ShloMosaic.Lib.ValueIdx

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen Cert.KernelIdeal.Fns

/-! ## The functions -/

/-- An index list padded with 5888 zeros. -/
def padI (x : IVec S4000000 32) : IVec S4005888 32 :=
  pad S4005888 ![0] ![5888] ![0] x (constantI S_ 32 0#32) pads_S4000000_S4005888_058880 h_S_

/-- The weights padded with 5888 copies of the integer zero converted to a float. -/
def padF (x : S4000000.Idx → EReal) : S4005888.Idx → EReal :=
  pad S4005888 ![0] ![5888] ![0] x (sitofp (F := Ideal) .f32 (constantI S_ 32 0#32)) pads_S4000000_S4005888_058880 h_S_

/-- The padded weights as a column. -/
def asCol (v : S4005888.Idx → EReal) : S4005888x1.Idx → EReal := shapeCast S4005888x1 v shapeCasts_S4005888_S4005888x1

/-- The padded column indices wrapped: a negative one has the table's extent added. -/
def wrapped (colp : IVec S4005888 32) : IVec S4005888x1 32 :=
  broadcastInDim S4005888x1 ![0] bcast_S4005888_S4005888x1_0
    (select (cmpi .slt colp (broadcastInDim S4005888 ![] bcast_S_S4005888 (constantI S_ 32 0#32)))
      (addi colp (broadcastInDim S4005888 ![] bcast_S_S4005888 (constantI S_ 32 400000#32))) colp)

/-- Per edge: is the wrapped index inside the table? -/
def inTable (idx : IVec S4005888x1 32) : IVec S4005888 1 :=
  Host.reduce IntOp.andi
    (andi (cmpi .sge idx (broadcastInDim S4005888x1 ![] bcast_S_S4005888x1 (constantI S_ 32 0#32)))
      (cmpi .sle idx (broadcastInDim S4005888x1 ![0, 1] bcast_S1x1_S4005888x1_0_1
        (broadcastInDim S1x1 ![1] bcast_S1_S1x1_1 (constantI S1 32 399999#32)))))
    (constantI S_ 1 1#1) reducesTo_S4005888x1_S4005888_d1 h_S_

/-- The node table taken at the padded column indices, the filler pattern where the index is outside the table. -/
def taken (x : S400000x64.Idx → EReal) (colp : IVec S4005888 32) : S4005888x64.Idx → EReal :=
  select (broadcastInDim S4005888x64 ![0] bcast_S4005888_S4005888x64_0 (inTable (wrapped colp)))
    (Host.gather gather_S400000x64_S4005888x1_S4005888x64_1_0_n_n_0_1_164 x (wrapped colp))
    (broadcastInDim S4005888x64 ![] bcast_S_S4005888x64 (constant (F := Ideal) S_ .f32 0x7FC00000#32))

/-- The scaled messages summed into a table of zeros at the padded row indices. -/
def gathered (rowp : IVec S4005888 32) (msgs : S4005888x64.Idx → EReal) : S400000x64.Idx → EReal :=
  Host.scatterAdd (F := Ideal) scatter_S400000x64_S4005888x1_S4005888x64_1_0_0_1
    (broadcastInDim S400000x64 ![] bcast_S_S400000x64 (constant (F := Ideal) S_ .f32 0x00000000#32))
    (broadcastInDim S4005888x1 ![0] bcast_S4005888_S4005888x1_0 rowp) msgs

/-- One layer: take, scale, sum by destination. -/
def layer (rowp colp : IVec S4005888 32) (w : S4005888x1.Idx → EReal) (x : S400000x64.Idx → EReal) : S400000x64.Idx → EReal :=
  gathered rowp (scaled w (taken x colp))

/-! ## The stretches: what a buffer holds after one, from any contents before it -/

variable (W : Valuation τ sig (Elt Ideal))

/-- Reading a buffer through a literal typed reference of the buffer's own type is reading the buffer. -/
theorem read_arg0 (v : (Proc.devRef (τ := τ) .tc main_arg0 : DevRef τ sig).ty.Contents (Elt Ideal)) :
    (TRef.of main_arg0 : TRef sig ⟨S400000x64, .f32⟩).ofBuf v = v := rfl
theorem read_v1 (v : (Proc.devRef (τ := τ) .tc main_v1 : DevRef τ sig).ty.Contents (Elt Ideal)) :
    (TRef.of main_v1 : TRef sig ⟨S4005888, .i32⟩).ofBuf v = v := rfl
/-- Writing through a literal typed reference of the buffer's own type writes the value. -/
theorem write_v4 (v : (⟨S4005888x64, .f32⟩ : BufTy).Contents (Elt Ideal)) :
    (TRef.of main_v4 : TRef sig ⟨S4005888x64, .f32⟩).toBuf v = v := rfl
theorem read_v8 (v : (Proc.devRef (τ := τ) .tc main_v8 : DevRef τ sig).ty.Contents (Elt Ideal)) :
    (TRef.of main_v8 : TRef sig ⟨S400000x64, .f32⟩).ofBuf v = v := rfl
theorem write_v10 (v : (⟨S4005888x64, .f32⟩ : BufTy).Contents (Elt Ideal)) :
    (TRef.of main_v10 : TRef sig ⟨S4005888x64, .f32⟩).toBuf v = v := rfl
theorem read_v14 (v : (Proc.devRef (τ := τ) .tc main_v14 : DevRef τ sig).ty.Contents (Elt Ideal)) :
    (TRef.of main_v14 : TRef sig ⟨S400000x64, .f32⟩).ofBuf v = v := rfl
theorem write_v16 (v : (⟨S4005888x64, .f32⟩ : BufTy).Contents (Elt Ideal)) :
    (TRef.of main_v16 : TRef sig ⟨S4005888x64, .f32⟩).toBuf v = v := rfl

theorem rowp_after : (StableHlo.after (hostOps0_1 (F := Ideal)) (StableHlo.after (hostOps0 (F := Ideal)) W) (Proc.devRef .tc main_v0) : IVec S4005888 32)
    = padI (W (Proc.devRef .tc main_arg1)) := by
  after_results
  rfl

set_option maxHeartbeats 2000000 in
theorem taken_after : (StableHlo.after (hostOps0_7 (F := Ideal)) W (Proc.devRef .tc main_v4) : S4005888x64.Idx → EReal)
    = taken (W (Proc.devRef .tc main_arg0)) (W (Proc.devRef .tc main_v1)) := by
  after_results_simp
  simp only [Cert.LibTypedRef.ofBuf_toBuf, read_arg0, read_v1, write_v4]
  rfl

set_option maxHeartbeats 2000000 in
theorem taken_after2 : (StableHlo.after (hostOps2 (F := Ideal)) W (Proc.devRef .tc main_v10) : S4005888x64.Idx → EReal)
    = taken (W (Proc.devRef .tc main_v8)) (W (Proc.devRef .tc main_v1)) := by
  after_results_simp
  simp only [Cert.LibTypedRef.ofBuf_toBuf, read_v8, read_v1, write_v10]
  rfl

set_option maxHeartbeats 2000000 in
theorem taken_after4 : (StableHlo.after (hostOps4 (F := Ideal)) W (Proc.devRef .tc main_v16) : S4005888x64.Idx → EReal)
    = taken (W (Proc.devRef .tc main_v14)) (W (Proc.devRef .tc main_v1)) := by
  after_results_simp
  simp only [Cert.LibTypedRef.ofBuf_toBuf, read_v14, read_v1, write_v16]
  rfl

theorem colp_after : (StableHlo.after (hostOps0_3 (F := Ideal)) (StableHlo.after (hostOps0_2 (F := Ideal)) W) (Proc.devRef .tc main_v1) : IVec S4005888 32)
    = padI (W (Proc.devRef .tc main_arg2)) := by
  after_results
  rfl

theorem valp_after : (StableHlo.after (hostOps0_5 (F := Ideal)) (StableHlo.after (hostOps0_4 (F := Ideal)) W) (Proc.devRef .tc main_v2) : S4005888.Idx → EReal)
    = padF (W (Proc.devRef .tc main_arg3)) := by
  after_results
  rfl

theorem wcol_after : (StableHlo.after (hostOps0_6 (F := Ideal)) W (Proc.devRef .tc main_v3) : S4005888x1.Idx → EReal)
    = asCol (W (Proc.devRef .tc main_v2)) := by
  after_results
  rfl

theorem gathered_after1 : (StableHlo.after (hostOps1 (F := Ideal)) W (Proc.devRef .tc main_v8) : S400000x64.Idx → EReal)
    = gathered (W (Proc.devRef .tc main_v0)) (W (Proc.devRef .tc main_v5)) := by
  after_results
  rfl

theorem gathered_after3 : (StableHlo.after (hostOps3 (F := Ideal)) W (Proc.devRef .tc main_v14) : S400000x64.Idx → EReal)
    = gathered (W (Proc.devRef .tc main_v0)) (W (Proc.devRef .tc main_v11)) := by
  after_results
  rfl

theorem gathered_after5 : (StableHlo.after (hostOps5 (F := Ideal)) W (Proc.devRef .tc main_v20) : S400000x64.Idx → EReal)
    = gathered (W (Proc.devRef .tc main_v0)) (W (Proc.devRef .tc main_v17)) := by
  after_results
  rfl

end Cert.KernelIdeal.HostK

end
-- ==== Proof.Msg0.lean ====
/-
  The first message pass: each edge's gathered feature row scaled by that edge's weight.

  The body multiplies its block of the gathered rows (8192 edges by 64 features) by its block of the weight column
  (8192 by 1) broadcast along the features, and stores the product whole. The blocks of the output tile the array of
  4005888 edges, block t holding edges 8192·t to 8192·t + 8191, and both inputs move with the output. So after the
  call the output array holds, at edge e and feature d, the gathered entry (e, d) times the weight of edge e: one
  function of the two input arrays as the call finds them.
-/
import proofs.«409824_j14431090114657_1_alg».proof.Proof.Gen.KernelIdeal.Frame
import proofs.«409824_j14431090114657_1_alg».proof.Proof.Fns
import Idealize.ShloMosaic.Lib.Pipeline.Value
import Idealize.ShloMosaic.Lib.ValueIdx

set_option maxRecDepth 16384

noncomputable section

namespace Cert.KernelIdeal.Msg0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fns

theorem hz : (![0, 0] : Fin 2 → Nat) = fun _ => 0 := funext fun a => by fin_cases a <;> rfl

/-- The body's product at an entry of the block: the row block's entry times the weight column's entry of that row. -/
theorem pay_apply (g : Vec Ideal S8192x64 .f32) (w : Vec Ideal S8192x1 .f32) (j : S8192x64.Idx) :
    k0_pay1 g w j = g j * w (ix2 (j 0) (0 : Fin 1)) := by
  unfold k0_pay1
  simp only [shapeCast_self]
  rw [mulf_apply]
  refine congrArg (g j * ·) ?_
  refine broadcastTo_apply _ _ j _ fun a => ?_
  match a with
  | ⟨0, _⟩ => rfl
  | ⟨1, _⟩ => rfl

variable (V : (c : Dev nD) → (b : Ref sig .tc) → Buf (Elt Ideal) ((c : Thread nD τ).loc b))

/-- The weight column and the gathered rows as the call finds them, at their literal types. -/
abbrev wArr (c : Dev nD) : S4005888x1.Idx → EReal := V c main_v3
abbrev gArr (c : Dev nD) : S4005888x64.Idx → EReal := V c main_v4

/-- The index maps over the grid: all three windows sit at block row t, block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (0 : Fin 2) = t.val ∧ win0_2.index t (1 : Fin 2) = 0 :=
  (by decide +kernel : ∀ t : Fin grid0.N, _)

/-- What point t writes back is block t of the scaled messages of the arrays the call finds. -/
theorem flushed_eq (c : Dev nD) (t : Fin cfg0.N) :
    (dat0 V c).flushed 2 t = ((cfg0.win 2).blk t).view.read (Elt Ideal) (scaled (wArr V c) (gArr V c)) := by
  show (cfg0.win 2).cut (grid0.coords t) ((dat0 V c).after 2 t) = _
  rw [after0_2]
  unfold out0_2
  rw [View.canon_unit_zero hz]
  simp only [View.ld_unit_zero (S := S8192x64) hz, View.ld_unit_zero (S := S8192x1) hz]
  obtain ⟨e0, e1, e2, e3, e4, e5⟩ := idx_facts t
  funext j
  refine (pay_apply _ _ j).trans ?_
  show gArr V c (((cfg0.win 1).blk t).view.emb j) * wArr V c (((cfg0.win 0).blk t).view.emb (ix2 (j 0) (0 : Fin 1)))
    = gArr V c (((cfg0.win 2).blk t).view.emb j) * wArr V c (ix2 ((((cfg0.win 2).blk t).view.emb j) 0) (0 : Fin 1))
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 64 + 1 * (j 1).val = win0_2.index t (1 : Fin 2) * 64 + 1 * (j 1).val; omega
  have h0 : ((cfg0.win 0).blk t).view.emb (ix2 (j 0) (0 : Fin 1)) = ix2 ((((cfg0.win 2).blk t).view.emb j) 0) (0 : Fin 1) := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 1 + 1 * 0 = 0; omega
  rw [h0, h1]
  rfl

/-- An index of the array lies in point t's block iff each coordinate lies in the block's range on its axis. -/
theorem mem_blk (t : Fin cfg0.N) (i : S4005888x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v5).slice (win0_2.rect t)).set ↔ _
  rw [View.set_slice_whole, Rect.mem_set_unit]
  exact Iff.rfl

/-- Every edge row lies in the block of the point that is its quotient by 8192. -/
theorem cover (i : S4005888x64.Idx) :
    ∃ t : Fin cfg0.N, (cfg0.win 2).flush t = true ∧ i ∈ ((cfg0.win 2).blk t).view.set := by
  have hi0 : (i 0).val < 4005888 := (i 0).isLt
  have hi1 : (i 1).val < 64 := (i 1).isLt
  refine ⟨⟨(i 0).val / 8192, by show _ < 489; omega⟩, flush0_2 _, ?_⟩
  rw [mem_blk]
  obtain ⟨-, -, -, -, e4, e5⟩ := idx_facts ⟨(i 0).val / 8192, by show _ < 489; omega⟩
  intro a
  match a with
  | ⟨0, _⟩ =>
    show win0_2.index _ (0 : Fin 2) * 8192 ≤ (i 0).val ∧ (i 0).val < win0_2.index _ (0 : Fin 2) * 8192 + 8192
    rw [e4]; show (i 0).val / 8192 * 8192 ≤ (i 0).val ∧ (i 0).val < (i 0).val / 8192 * 8192 + 8192; omega
  | ⟨1, _⟩ =>
    show win0_2.index _ (1 : Fin 2) * 64 ≤ (i 1).val ∧ (i 1).val < win0_2.index _ (1 : Fin 2) * 64 + 64
    rw [e5]; omega

/-- After the call the output array holds the scaled messages of the arrays the call found. -/
theorem arr (c : Dev nD) : (dat0 V c).arrAt 2 cfg0.N = scaled (wArr V c) (gArr V c) :=
  (dat0 V c).arrAt_eq_of_cover 2 (scaled (wArr V c) (gArr V c)) (fun t _ => flushed_eq V c t) cover

end Cert.KernelIdeal.Msg0

end
-- ==== Proof.Msg2.lean ====
/-
  The second message pass: each edge's gathered feature row scaled by that edge's weight.

  The body multiplies its block of the gathered rows (8192 edges by 64 features) by its block of the weight column
  (8192 by 1) broadcast along the features, and stores the product whole. The blocks of the output tile the array of
  4005888 edges, block t holding edges 8192·t to 8192·t + 8191, and both inputs move with the output. So after the
  call the output array holds, at edge e and feature d, the gathered entry (e, d) times the weight of edge e: one
  function of the two input arrays as the call finds them.
-/
import proofs.«409824_j14431090114657_1_alg».proof.Proof.Gen.KernelIdeal.Frame
import proofs.«409824_j14431090114657_1_alg».proof.Proof.Fns
import Idealize.ShloMosaic.Lib.Pipeline.Value
import Idealize.ShloMosaic.Lib.ValueIdx

set_option maxRecDepth 16384

noncomputable section

namespace Cert.KernelIdeal.Msg2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fns

theorem hz : (![0, 0] : Fin 2 → Nat) = fun _ => 0 := funext fun a => by fin_cases a <;> rfl

/-- The body's product at an entry of the block: the row block's entry times the weight column's entry of that row. -/
theorem pay_apply (g : Vec Ideal S8192x64 .f32) (w : Vec Ideal S8192x1 .f32) (j : S8192x64.Idx) :
    k2_pay1 g w j = g j * w (ix2 (j 0) (0 : Fin 1)) := by
  unfold k2_pay1
  simp only [shapeCast_self]
  rw [mulf_apply]
  refine congrArg (g j * ·) ?_
  refine broadcastTo_apply _ _ j _ fun a => ?_
  match a with
  | ⟨0, _⟩ => rfl
  | ⟨1, _⟩ => rfl

variable (V : (c : Dev nD) → (b : Ref sig .tc) → Buf (Elt Ideal) ((c : Thread nD τ).loc b))

/-- The weight column and the gathered rows as the call finds them, at their literal types. -/
abbrev wArr (c : Dev nD) : S4005888x1.Idx → EReal := V c main_v3
abbrev gArr (c : Dev nD) : S4005888x64.Idx → EReal := V c main_v10

/-- The index maps over the grid: all three windows sit at block row t, block column 0. -/
theorem idx_facts : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (0 : Fin 2) = t.val ∧ win2_2.index t (1 : Fin 2) = 0 :=
  (by decide +kernel : ∀ t : Fin grid2.N, _)

/-- What point t writes back is block t of the scaled messages of the arrays the call finds. -/
theorem flushed_eq (c : Dev nD) (t : Fin cfg2.N) :
    (dat2 V c).flushed 2 t = ((cfg2.win 2).blk t).view.read (Elt Ideal) (scaled (wArr V c) (gArr V c)) := by
  show (cfg2.win 2).cut (grid2.coords t) ((dat2 V c).after 2 t) = _
  rw [after2_2]
  unfold out2_2
  rw [View.canon_unit_zero hz]
  simp only [View.ld_unit_zero (S := S8192x64) hz, View.ld_unit_zero (S := S8192x1) hz]
  obtain ⟨e0, e1, e2, e3, e4, e5⟩ := idx_facts t
  funext j
  refine (pay_apply _ _ j).trans ?_
  show gArr V c (((cfg2.win 1).blk t).view.emb j) * wArr V c (((cfg2.win 0).blk t).view.emb (ix2 (j 0) (0 : Fin 1)))
    = gArr V c (((cfg2.win 2).blk t).view.emb j) * wArr V c (ix2 ((((cfg2.win 2).blk t).view.emb j) 0) (0 : Fin 1))
  have h1 : ((cfg2.win 1).blk t).view.emb j = ((cfg2.win 2).blk t).view.emb j := by
    funext a; apply Fin.ext
    match a with
    | ⟨0, _⟩ => show win2_1.index t (0 : Fin 2) * 8192 + 1 * (j 0).val = win2_2.index t (0 : Fin 2) * 8192 + 1 * (j 0).val; omega
    | ⟨1, _⟩ => show win2_1.index t (1 : Fin 2) * 64 + 1 * (j 1).val = win2_2.index t (1 : Fin 2) * 64 + 1 * (j 1).val; omega
  have h0 : ((cfg2.win 0).blk t).view.emb (ix2 (j 0) (0 : Fin 1)) = ix2 ((((cfg2.win 2).blk t).view.emb j) 0) (0 : Fin 1) := by
    funext a; apply Fin.ext
    match a with
    | ⟨0, _⟩ => show win2_0.index t (0 : Fin 2) * 8192 + 1 * (j 0).val = win2_2.index t (0 : Fin 2) * 8192 + 1 * (j 0).val; omega
    | ⟨1, _⟩ => show win2_0.index t (1 : Fin 2) * 1 + 1 * 0 = 0; omega
  rw [h0, h1]
  rfl

/-- An index of the array lies in point t's block iff each coordinate lies in the block's range on its axis. -/
theorem mem_blk (t : Fin cfg2.N) (i : S4005888x64.Idx) :
    i ∈ ((cfg2.win 2).blk t).view.set ↔ ∀ a : Fin 2, win2_2.index t a * S8192x64.size a ≤ (i a).val ∧ (i a).val < win2_2.index t a * S8192x64.size a + S8192x64.size a := by
  show i ∈ ((View.whole main_v11).slice (win2_2.rect t)).set ↔ _
  rw [View.set_slice_whole, Rect.mem_set_unit]
  exact Iff.rfl

/-- Every edge row lies in the block of the point that is its quotient by 8192. -/
theorem cover (i : S4005888x64.Idx) :
    ∃ t : Fin cfg2.N, (cfg2.win 2).flush t = true ∧ i ∈ ((cfg2.win 2).blk t).view.set := by
  have hi0 : (i 0).val < 4005888 := (i 0).isLt
  have hi1 : (i 1).val < 64 := (i 1).isLt
  refine ⟨⟨(i 0).val / 8192, by show _ < 489; omega⟩, flush2_2 _, ?_⟩
  rw [mem_blk]
  obtain ⟨-, -, -, -, e4, e5⟩ := idx_facts ⟨(i 0).val / 8192, by show _ < 489; omega⟩
  intro a
  match a with
  | ⟨0, _⟩ =>
    show win2_2.index _ (0 : Fin 2) * 8192 ≤ (i 0).val ∧ (i 0).val < win2_2.index _ (0 : Fin 2) * 8192 + 8192
    rw [e4]; show (i 0).val / 8192 * 8192 ≤ (i 0).val ∧ (i 0).val < (i 0).val / 8192 * 8192 + 8192; omega
  | ⟨1, _⟩ =>
    show win2_2.index _ (1 : Fin 2) * 64 ≤ (i 1).val ∧ (i 1).val < win2_2.index _ (1 : Fin 2) * 64 + 64
    rw [e5]; omega

/-- After the call the output array holds the scaled messages of the arrays the call found. -/
theorem arr (c : Dev nD) : (dat2 V c).arrAt 2 cfg2.N = scaled (wArr V c) (gArr V c) :=
  (dat2 V c).arrAt_eq_of_cover 2 (scaled (wArr V c) (gArr V c)) (fun t _ => flushed_eq V c t) cover

end Cert.KernelIdeal.Msg2

end
-- ==== Proof.Msg4.lean ====
/-
  The third message pass: each edge's gathered feature row scaled by that edge's weight.

  The body multiplies its block of the gathered rows (8192 edges by 64 features) by its block of the weight column
  (8192 by 1) broadcast along the features, and stores the product whole. The blocks of the output tile the array of
  4005888 edges, block t holding edges 8192·t to 8192·t + 8191, and both inputs move with the output. So after the
  call the output array holds, at edge e and feature d, the gathered entry (e, d) times the weight of edge e: one
  function of the two input arrays as the call finds them.
-/
import proofs.«409824_j14431090114657_1_alg».proof.Proof.Gen.KernelIdeal.Frame
import proofs.«409824_j14431090114657_1_alg».proof.Proof.Fns
import Idealize.ShloMosaic.Lib.Pipeline.Value
import Idealize.ShloMosaic.Lib.ValueIdx

set_option maxRecDepth 16384

noncomputable section

namespace Cert.KernelIdeal.Msg4

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fns

theorem hz : (![0, 0] : Fin 2 → Nat) = fun _ => 0 := funext fun a => by fin_cases a <;> rfl

/-- The body's product at an entry of the block: the row block's entry times the weight column's entry of that row. -/
theorem pay_apply (g : Vec Ideal S8192x64 .f32) (w : Vec Ideal S8192x1 .f32) (j : S8192x64.Idx) :
    k4_pay1 g w j = g j * w (ix2 (j 0) (0 : Fin 1)) := by
  unfold k4_pay1
  simp only [shapeCast_self]
  rw [mulf_apply]
  refine congrArg (g j * ·) ?_
  refine broadcastTo_apply _ _ j _ fun a => ?_
  match a with
  | ⟨0, _⟩ => rfl
  | ⟨1, _⟩ => rfl

variable (V : (c : Dev nD) → (b : Ref sig .tc) → Buf (Elt Ideal) ((c : Thread nD τ).loc b))

/-- The weight column and the gathered rows as the call finds them, at their literal types. -/
abbrev wArr (c : Dev nD) : S4005888x1.Idx → EReal := V c main_v3
abbrev gArr (c : Dev nD) : S4005888x64.Idx → EReal := V c main_v16

/-- The index maps over the grid: all three windows sit at block row t, block column 0. -/
theorem idx_facts : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (0 : Fin 2) = t.val ∧ win4_2.index t (1 : Fin 2) = 0 :=
  (by decide +kernel : ∀ t : Fin grid4.N, _)

/-- What point t writes back is block t of the scaled messages of the arrays the call finds. -/
theorem flushed_eq (c : Dev nD) (t : Fin cfg4.N) :
    (dat4 V c).flushed 2 t = ((cfg4.win 2).blk t).view.read (Elt Ideal) (scaled (wArr V c) (gArr V c)) := by
  show (cfg4.win 2).cut (grid4.coords t) ((dat4 V c).after 2 t) = _
  rw [after4_2]
  unfold out4_2
  rw [View.canon_unit_zero hz]
  simp only [View.ld_unit_zero (S := S8192x64) hz, View.ld_unit_zero (S := S8192x1) hz]
  obtain ⟨e0, e1, e2, e3, e4, e5⟩ := idx_facts t
  funext j
  refine (pay_apply _ _ j).trans ?_
  show gArr V c (((cfg4.win 1).blk t).view.emb j) * wArr V c (((cfg4.win 0).blk t).view.emb (ix2 (j 0) (0 : Fin 1)))
    = gArr V c (((cfg4.win 2).blk t).view.emb j) * wArr V c (ix2 ((((cfg4.win 2).blk t).view.emb j) 0) (0 : Fin 1))
  have h1 : ((cfg4.win 1).blk t).view.emb j = ((cfg4.win 2).blk t).view.emb j := by
    funext a; apply Fin.ext
    match a with
    | ⟨0, _⟩ => show win4_1.index t (0 : Fin 2) * 8192 + 1 * (j 0).val = win4_2.index t (0 : Fin 2) * 8192 + 1 * (j 0).val; omega
    | ⟨1, _⟩ => show win4_1.index t (1 : Fin 2) * 64 + 1 * (j 1).val = win4_2.index t (1 : Fin 2) * 64 + 1 * (j 1).val; omega
  have h0 : ((cfg4.win 0).blk t).view.emb (ix2 (j 0) (0 : Fin 1)) = ix2 ((((cfg4.win 2).blk t).view.emb j) 0) (0 : Fin 1) := by
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 1 + 1 * 0 = 0; omega
  rw [h0, h1]
  rfl

/-- An index of the array lies in point t's block iff each coordinate lies in the block's range on its axis. -/
theorem mem_blk (t : Fin cfg4.N) (i : S4005888x64.Idx) :
    i ∈ ((cfg4.win 2).blk t).view.set ↔ ∀ a : Fin 2, win4_2.index t a * S8192x64.size a ≤ (i a).val ∧ (i a).val < win4_2.index t a * S8192x64.size a + S8192x64.size a := by
  show i ∈ ((View.whole main_v17).slice (win4_2.rect t)).set ↔ _
  rw [View.set_slice_whole, Rect.mem_set_unit]
  exact Iff.rfl

/-- Every edge row lies in the block of the point that is its quotient by 8192. -/
theorem cover (i : S4005888x64.Idx) :
    ∃ t : Fin cfg4.N, (cfg4.win 2).flush t = true ∧ i ∈ ((cfg4.win 2).blk t).view.set := by
  have hi0 : (i 0).val < 4005888 := (i 0).isLt
  have hi1 : (i 1).val < 64 := (i 1).isLt
  refine ⟨⟨(i 0).val / 8192, by show _ < 489; omega⟩, flush4_2 _, ?_⟩
  rw [mem_blk]
  obtain ⟨-, -, -, -, e4, e5⟩ := idx_facts ⟨(i 0).val / 8192, by show _ < 489; omega⟩
  intro a
  match a with
  | ⟨0, _⟩ =>
    show win4_2.index _ (0 : Fin 2) * 8192 ≤ (i 0).val ∧ (i 0).val < win4_2.index _ (0 : Fin 2) * 8192 + 8192
    rw [e4]; show (i 0).val / 8192 * 8192 ≤ (i 0).val ∧ (i 0).val < (i 0).val / 8192 * 8192 + 8192; omega
  | ⟨1, _⟩ =>
    show win4_2.index _ (1 : Fin 2) * 64 ≤ (i 1).val ∧ (i 1).val < win4_2.index _ (1 : Fin 2) * 64 + 64
    rw [e5]; omega

/-- After the call the output array holds the scaled messages of the arrays the call found. -/
theorem arr (c : Dev nD) : (dat4 V c).arrAt 2 cfg4.N = scaled (wArr V c) (gArr V c) :=
  (dat4 V c).arrAt_eq_of_cover 2 (scaled (wArr V c) (gArr V c)) (fun t _ => flushed_eq V c t) cover

end Cert.KernelIdeal.Msg4

end
-- ==== Proof.Add1.lean ====
/-
  The first accumulate pass: the running sum plus the new layer's node table, entry by entry.

  The body adds its two blocks (8000 nodes by 64 features) and stores the sum whole. The output's blocks tile the
  table of 400000 nodes, block t holding nodes 8000·t to 8000·t + 7999, and both inputs move with the output. So
  after the call the output array holds the entrywise sum of the two input arrays as the call finds them; what the
  output array held before (a copy of the first input) is overwritten everywhere.
-/
import proofs.«409824_j14431090114657_1_alg».proof.Proof.Gen.KernelIdeal.Frame
import proofs.«409824_j14431090114657_1_alg».proof.Proof.Fns
import Idealize.ShloMosaic.Lib.Pipeline.Value
import Idealize.ShloMosaic.Lib.ValueIdx

set_option maxRecDepth 16384

noncomputable section

namespace Cert.KernelIdeal.Add1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fns

theorem hz : (![0, 0] : Fin 2 → Nat) = fun _ => 0 := funext fun a => by fin_cases a <;> rfl

/-- The body's sum at an entry of the block. -/
theorem pay_apply (a x : Vec Ideal S8000x64 .f32) (j : S8000x64.Idx) : k1_pay1 a x j = a j + x j := by
  unfold k1_pay1
  simp only [shapeCast_self]
  rfl

variable (V : (c : Dev nD) → (b : Ref sig .tc) → Buf (Elt Ideal) ((c : Thread nD τ).loc b))

/-- The running sum and the new layer's table as the call finds them, at their literal types. -/
abbrev aArr (c : Dev nD) : S400000x64.Idx → EReal := V c main_arg0
abbrev xArr (c : Dev nD) : S400000x64.Idx → EReal := V c main_v8

/-- The index maps over the grid: all three windows sit at block row t, block column 0. -/
theorem idx_facts : ∀ t : Fin cfg1.N, win1_0.index t (0 : Fin 2) = win1_2.index t (0 : Fin 2)
    ∧ win1_0.index t (1 : Fin 2) = 0
    ∧ win1_1.index t (0 : Fin 2) = win1_2.index t (0 : Fin 2)
    ∧ win1_1.index t (1 : Fin 2) = 0
    ∧ win1_2.index t (0 : Fin 2) = t.val ∧ win1_2.index t (1 : Fin 2) = 0 :=
  (by decide +kernel : ∀ t : Fin grid1.N, _)

/-- What point t writes back is block t of the entrywise sum of the arrays the call finds. -/
theorem flushed_eq (c : Dev nD) (t : Fin cfg1.N) :
    (dat1 V c).flushed 2 t = ((cfg1.win 2).blk t).view.read (Elt Ideal) (summed (aArr V c) (xArr V c)) := by
  show (cfg1.win 2).cut (grid1.coords t) ((dat1 V c).after 2 t) = _
  rw [after1_2]
  unfold out1_2
  rw [View.canon_unit_zero hz]
  simp only [View.ld_unit_zero (S := S8000x64) hz]
  obtain ⟨e0, e1, e2, e3, e4, e5⟩ := idx_facts t
  funext j
  refine (pay_apply _ _ j).trans ?_
  show aArr V c (((cfg1.win 0).blk t).view.emb j) + xArr V c (((cfg1.win 1).blk t).view.emb j)
    = aArr V c (((cfg1.win 2).blk t).view.emb j) + xArr V c (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 64 + 1 * (j 1).val = win1_2.index t (1 : Fin 2) * 64 + 1 * (j 1).val; omega
  rw [h0, h1]

/-- An index of the table lies in point t's block iff each coordinate lies in the block's range on its axis. -/
theorem mem_blk (t : Fin cfg1.N) (i : S400000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v9).slice (win1_2.rect t)).set ↔ _
  rw [View.set_slice_whole, Rect.mem_set_unit]
  exact Iff.rfl

/-- Every node row lies in the block of the point that is its quotient by 8000. -/
theorem cover (i : S400000x64.Idx) :
    ∃ t : Fin cfg1.N, (cfg1.win 2).flush t = true ∧ i ∈ ((cfg1.win 2).blk t).view.set := by
  have hi0 : (i 0).val < 400000 := (i 0).isLt
  have hi1 : (i 1).val < 64 := (i 1).isLt
  refine ⟨⟨(i 0).val / 8000, by show _ < 50; omega⟩, flush1_2 _, ?_⟩
  rw [mem_blk]
  obtain ⟨-, -, -, -, e4, e5⟩ := idx_facts ⟨(i 0).val / 8000, by show _ < 50; omega⟩
  intro a
  match a with
  | ⟨0, _⟩ =>
    show win1_2.index _ (0 : Fin 2) * 8000 ≤ (i 0).val ∧ (i 0).val < win1_2.index _ (0 : Fin 2) * 8000 + 8000
    rw [e4]; show (i 0).val / 8000 * 8000 ≤ (i 0).val ∧ (i 0).val < (i 0).val / 8000 * 8000 + 8000; omega
  | ⟨1, _⟩ =>
    show win1_2.index _ (1 : Fin 2) * 64 ≤ (i 1).val ∧ (i 1).val < win1_2.index _ (1 : Fin 2) * 64 + 64
    rw [e5]; omega

/-- After the call the output array holds the entrywise sum of the arrays the call found. -/
theorem arr (c : Dev nD) : (dat1 V c).arrAt 2 cfg1.N = summed (aArr V c) (xArr V c) :=
  (dat1 V c).arrAt_eq_of_cover 2 (summed (aArr V c) (xArr V c)) (fun t _ => flushed_eq V c t) cover

end Cert.KernelIdeal.Add1

end
-- ==== Proof.Add3.lean ====
/-
  The second accumulate pass: the running sum plus the new layer's node table, entry by entry.

  The body adds its two blocks (8000 nodes by 64 features) and stores the sum whole. The output's blocks tile the
  table of 400000 nodes, block t holding nodes 8000·t to 8000·t + 7999, and both inputs move with the output. So
  after the call the output array holds the entrywise sum of the two input arrays as the call finds them; what the
  output array held before (a copy of the first input) is overwritten everywhere.
-/
import proofs.«409824_j14431090114657_1_alg».proof.Proof.Gen.KernelIdeal.Frame
import proofs.«409824_j14431090114657_1_alg».proof.Proof.Fns
import Idealize.ShloMosaic.Lib.Pipeline.Value
import Idealize.ShloMosaic.Lib.ValueIdx

set_option maxRecDepth 16384

noncomputable section

namespace Cert.KernelIdeal.Add3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fns

theorem hz : (![0, 0] : Fin 2 → Nat) = fun _ => 0 := funext fun a => by fin_cases a <;> rfl

/-- The body's sum at an entry of the block. -/
theorem pay_apply (a x : Vec Ideal S8000x64 .f32) (j : S8000x64.Idx) : k3_pay1 a x j = a j + x j := by
  unfold k3_pay1
  simp only [shapeCast_self]
  rfl

variable (V : (c : Dev nD) → (b : Ref sig .tc) → Buf (Elt Ideal) ((c : Thread nD τ).loc b))

/-- The running sum and the new layer's table as the call finds them, at their literal types. -/
abbrev aArr (c : Dev nD) : S400000x64.Idx → EReal := V c main_v9
abbrev xArr (c : Dev nD) : S400000x64.Idx → EReal := V c main_v14

/-- The index maps over the grid: all three windows sit at block row t, block column 0. -/
theorem idx_facts : ∀ t : Fin cfg3.N, win3_0.index t (0 : Fin 2) = win3_2.index t (0 : Fin 2)
    ∧ win3_0.index t (1 : Fin 2) = 0
    ∧ win3_1.index t (0 : Fin 2) = win3_2.index t (0 : Fin 2)
    ∧ win3_1.index t (1 : Fin 2) = 0
    ∧ win3_2.index t (0 : Fin 2) = t.val ∧ win3_2.index t (1 : Fin 2) = 0 :=
  (by decide +kernel : ∀ t : Fin grid3.N, _)

/-- What point t writes back is block t of the entrywise sum of the arrays the call finds. -/
theorem flushed_eq (c : Dev nD) (t : Fin cfg3.N) :
    (dat3 V c).flushed 2 t = ((cfg3.win 2).blk t).view.read (Elt Ideal) (summed (aArr V c) (xArr V c)) := by
  show (cfg3.win 2).cut (grid3.coords t) ((dat3 V c).after 2 t) = _
  rw [after3_2]
  unfold out3_2
  rw [View.canon_unit_zero hz]
  simp only [View.ld_unit_zero (S := S8000x64) hz]
  obtain ⟨e0, e1, e2, e3, e4, e5⟩ := idx_facts t
  funext j
  refine (pay_apply _ _ j).trans ?_
  show aArr V c (((cfg3.win 0).blk t).view.emb j) + xArr V c (((cfg3.win 1).blk t).view.emb j)
    = aArr V c (((cfg3.win 2).blk t).view.emb j) + xArr V c (((cfg3.win 2).blk t).view.emb j)
  have h0 : ((cfg3.win 0).blk t).view.emb j = ((cfg3.win 2).blk t).view.emb j := by
    funext a; apply Fin.ext
    match a with
    | ⟨0, _⟩ => show win3_0.index t (0 : Fin 2) * 8000 + 1 * (j 0).val = win3_2.index t (0 : Fin 2) * 8000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 8000 + 1 * (j 0).val = win3_2.index t (0 : Fin 2) * 8000 + 1 * (j 0).val; omega
    | ⟨1, _⟩ => show win3_1.index t (1 : Fin 2) * 64 + 1 * (j 1).val = win3_2.index t (1 : Fin 2) * 64 + 1 * (j 1).val; omega
  rw [h0, h1]

/-- An index of the table lies in point t's block iff each coordinate lies in the block's range on its axis. -/
theorem mem_blk (t : Fin cfg3.N) (i : S400000x64.Idx) :
    i ∈ ((cfg3.win 2).blk t).view.set ↔ ∀ a : Fin 2, win3_2.index t a * S8000x64.size a ≤ (i a).val ∧ (i a).val < win3_2.index t a * S8000x64.size a + S8000x64.size a := by
  show i ∈ ((View.whole main_v15).slice (win3_2.rect t)).set ↔ _
  rw [View.set_slice_whole, Rect.mem_set_unit]
  exact Iff.rfl

/-- Every node row lies in the block of the point that is its quotient by 8000. -/
theorem cover (i : S400000x64.Idx) :
    ∃ t : Fin cfg3.N, (cfg3.win 2).flush t = true ∧ i ∈ ((cfg3.win 2).blk t).view.set := by
  have hi0 : (i 0).val < 400000 := (i 0).isLt
  have hi1 : (i 1).val < 64 := (i 1).isLt
  refine ⟨⟨(i 0).val / 8000, by show _ < 50; omega⟩, flush3_2 _, ?_⟩
  rw [mem_blk]
  obtain ⟨-, -, -, -, e4, e5⟩ := idx_facts ⟨(i 0).val / 8000, by show _ < 50; omega⟩
  intro a
  match a with
  | ⟨0, _⟩ =>
    show win3_2.index _ (0 : Fin 2) * 8000 ≤ (i 0).val ∧ (i 0).val < win3_2.index _ (0 : Fin 2) * 8000 + 8000
    rw [e4]; show (i 0).val / 8000 * 8000 ≤ (i 0).val ∧ (i 0).val < (i 0).val / 8000 * 8000 + 8000; omega
  | ⟨1, _⟩ =>
    show win3_2.index _ (1 : Fin 2) * 64 ≤ (i 1).val ∧ (i 1).val < win3_2.index _ (1 : Fin 2) * 64 + 64
    rw [e5]; omega

/-- After the call the output array holds the entrywise sum of the arrays the call found. -/
theorem arr (c : Dev nD) : (dat3 V c).arrAt 2 cfg3.N = summed (aArr V c) (xArr V c) :=
  (dat3 V c).arrAt_eq_of_cover 2 (summed (aArr V c) (xArr V c)) (fun t _ => flushed_eq V c t) cover

end Cert.KernelIdeal.Add3

end
-- ==== Proof.Avg5.lean ====
/-
  The last accumulate pass: the running sum plus the last layer's node table, the sum times one quarter.

  The body adds its two blocks (8000 nodes by 64 features), multiplies the sum by the constant one quarter
  broadcast over the block, and stores the product whole. The output's blocks tile the
  table of 400000 nodes, block t holding nodes 8000·t to 8000·t + 7999, and both inputs move with the output. So
  after the call the output array holds, entry by entry, the sum of the two input arrays as the call finds them times
  one quarter; what the output array held before (a copy of the first input) is overwritten everywhere.
-/
import proofs.«409824_j14431090114657_1_alg».proof.Proof.Gen.KernelIdeal.Frame
import proofs.«409824_j14431090114657_1_alg».proof.Proof.Fns
import Idealize.ShloMosaic.Lib.Pipeline.Value
import Idealize.ShloMosaic.Lib.ValueIdx

set_option maxRecDepth 16384

noncomputable section

namespace Cert.KernelIdeal.Avg5

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fns

theorem hz : (![0, 0] : Fin 2 → Nat) = fun _ => 0 := funext fun a => by fin_cases a <;> rfl

/-- The body's result at an entry of the block: the sum there times the constant. -/
theorem pay_apply (a x : Vec Ideal S8000x64 .f32) (j : S8000x64.Idx) :
    k5_pay1 a x j = (a j + x j) * Ideal.ofBits .f32 0x3E800000#32 := by
  unfold k5_pay1
  simp only [shapeCast_self]
  rfl

variable (V : (c : Dev nD) → (b : Ref sig .tc) → Buf (Elt Ideal) ((c : Thread nD τ).loc b))

/-- The running sum and the last layer's table as the call finds them, at their literal types. -/
abbrev aArr (c : Dev nD) : S400000x64.Idx → EReal := V c main_v15
abbrev xArr (c : Dev nD) : S400000x64.Idx → EReal := V c main_v20

/-- The index maps over the grid: all three windows sit at block row t, block column 0. -/
theorem idx_facts : ∀ t : Fin cfg5.N, win5_0.index t (0 : Fin 2) = win5_2.index t (0 : Fin 2)
    ∧ win5_0.index t (1 : Fin 2) = 0
    ∧ win5_1.index t (0 : Fin 2) = win5_2.index t (0 : Fin 2)
    ∧ win5_1.index t (1 : Fin 2) = 0
    ∧ win5_2.index t (0 : Fin 2) = t.val ∧ win5_2.index t (1 : Fin 2) = 0 :=
  (by decide +kernel : ∀ t : Fin grid5.N, _)

/-- What point t writes back is block t of the quartered sum of the arrays the call finds. -/
theorem flushed_eq (c : Dev nD) (t : Fin cfg5.N) :
    (dat5 V c).flushed 2 t = ((cfg5.win 2).blk t).view.read (Elt Ideal) (quartered (aArr V c) (xArr V c)) := by
  show (cfg5.win 2).cut (grid5.coords t) ((dat5 V c).after 2 t) = _
  rw [after5_2]
  unfold out5_2
  rw [View.canon_unit_zero hz]
  simp only [View.ld_unit_zero (S := S8000x64) hz]
  obtain ⟨e0, e1, e2, e3, e4, e5⟩ := idx_facts t
  funext j
  refine (pay_apply _ _ j).trans ?_
  show (aArr V c (((cfg5.win 0).blk t).view.emb j) + xArr V c (((cfg5.win 1).blk t).view.emb j)) * Ideal.ofBits .f32 0x3E800000#32
    = (aArr V c (((cfg5.win 2).blk t).view.emb j) + xArr V c (((cfg5.win 2).blk t).view.emb j)) * Ideal.ofBits .f32 0x3E800000#32
  have h0 : ((cfg5.win 0).blk t).view.emb j = ((cfg5.win 2).blk t).view.emb j := by
    funext a; apply Fin.ext
    match a with
    | ⟨0, _⟩ => show win5_0.index t (0 : Fin 2) * 8000 + 1 * (j 0).val = win5_2.index t (0 : Fin 2) * 8000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 8000 + 1 * (j 0).val = win5_2.index t (0 : Fin 2) * 8000 + 1 * (j 0).val; omega
    | ⟨1, _⟩ => show win5_1.index t (1 : Fin 2) * 64 + 1 * (j 1).val = win5_2.index t (1 : Fin 2) * 64 + 1 * (j 1).val; omega
  rw [h0, h1]

/-- An index of the table lies in point t's block iff each coordinate lies in the block's range on its axis. -/
theorem mem_blk (t : Fin cfg5.N) (i : S400000x64.Idx) :
    i ∈ ((cfg5.win 2).blk t).view.set ↔ ∀ a : Fin 2, win5_2.index t a * S8000x64.size a ≤ (i a).val ∧ (i a).val < win5_2.index t a * S8000x64.size a + S8000x64.size a := by
  show i ∈ ((View.whole main_v21).slice (win5_2.rect t)).set ↔ _
  rw [View.set_slice_whole, Rect.mem_set_unit]
  exact Iff.rfl

/-- Every node row lies in the block of the point that is its quotient by 8000. -/
theorem cover (i : S400000x64.Idx) :
    ∃ t : Fin cfg5.N, (cfg5.win 2).flush t = true ∧ i ∈ ((cfg5.win 2).blk t).view.set := by
  have hi0 : (i 0).val < 400000 := (i 0).isLt
  have hi1 : (i 1).val < 64 := (i 1).isLt
  refine ⟨⟨(i 0).val / 8000, by show _ < 50; omega⟩, flush5_2 _, ?_⟩
  rw [mem_blk]
  obtain ⟨-, -, -, -, e4, e5⟩ := idx_facts ⟨(i 0).val / 8000, by show _ < 50; omega⟩
  intro a
  match a with
  | ⟨0, _⟩ =>
    show win5_2.index _ (0 : Fin 2) * 8000 ≤ (i 0).val ∧ (i 0).val < win5_2.index _ (0 : Fin 2) * 8000 + 8000
    rw [e4]; show (i 0).val / 8000 * 8000 ≤ (i 0).val ∧ (i 0).val < (i 0).val / 8000 * 8000 + 8000; omega
  | ⟨1, _⟩ =>
    show win5_2.index _ (1 : Fin 2) * 64 ≤ (i 1).val ∧ (i 1).val < win5_2.index _ (1 : Fin 2) * 64 + 64
    rw [e5]; omega

/-- After the call the output array holds the quartered sum of the arrays the call found. -/
theorem arr (c : Dev nD) : (dat5 V c).arrAt 2 cfg5.N = quartered (aArr V c) (xArr V c) :=
  (dat5 V c).arrAt_eq_of_cover 2 (quartered (aArr V c) (xArr V c)) (fun t _ => flushed_eq V c t) cover

end Cert.KernelIdeal.Avg5

end
-- ==== Proof.ChainKept.lean ====
/-
  Buffers that a stretch of host operations, or a call, leaves as it found them: the padded index lists, the weight
  column, the embedding and the running sums are written once and then only read.
-/
import proofs.«409824_j14431090114657_1_alg».proof.Proof.Gen.KernelIdeal.Frame
import Idealize.ShloMosaic.Lib.StableHlo.Run
import Idealize.ShloMosaic.PureOps.Ideal

set_option maxRecDepth 16384
set_option maxHeartbeats 1000000

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem W2_arg0 (c : Dev nD) : W2 m ρ c (Proc.devRef .tc main_arg0) = W0 m ρ c (Proc.devRef .tc main_arg0) := by
  show StableHlo.after hostOps0_1 (StableHlo.after hostOps0 (W0 m ρ c)) _ = _
  after_results_simp
theorem W2_arg2 (c : Dev nD) : W2 m ρ c (Proc.devRef .tc main_arg2) = W0 m ρ c (Proc.devRef .tc main_arg2) := by
  show StableHlo.after hostOps0_1 (StableHlo.after hostOps0 (W0 m ρ c)) _ = _
  after_results_simp
theorem W2_arg3 (c : Dev nD) : W2 m ρ c (Proc.devRef .tc main_arg3) = W0 m ρ c (Proc.devRef .tc main_arg3) := by
  show StableHlo.after hostOps0_1 (StableHlo.after hostOps0 (W0 m ρ c)) _ = _
  after_results_simp

theorem W4_v0 (c : Dev nD) : W4 m ρ c (Proc.devRef .tc main_v0) = W2 m ρ c (Proc.devRef .tc main_v0) := by
  show StableHlo.after hostOps0_3 (StableHlo.after hostOps0_2 (W2 m ρ c)) _ = _
  after_results_simp
theorem W4_arg0 (c : Dev nD) : W4 m ρ c (Proc.devRef .tc main_arg0) = W2 m ρ c (Proc.devRef .tc main_arg0) := by
  show StableHlo.after hostOps0_3 (StableHlo.after hostOps0_2 (W2 m ρ c)) _ = _
  after_results_simp
theorem W4_arg3 (c : Dev nD) : W4 m ρ c (Proc.devRef .tc main_arg3) = W2 m ρ c (Proc.devRef .tc main_arg3) := by
  show StableHlo.after hostOps0_3 (StableHlo.after hostOps0_2 (W2 m ρ c)) _ = _
  after_results_simp

theorem W6_v0 (c : Dev nD) : W6 m ρ c (Proc.devRef .tc main_v0) = W4 m ρ c (Proc.devRef .tc main_v0) := by
  show StableHlo.after hostOps0_5 (StableHlo.after hostOps0_4 (W4 m ρ c)) _ = _
  after_results_simp
theorem W6_v1 (c : Dev nD) : W6 m ρ c (Proc.devRef .tc main_v1) = W4 m ρ c (Proc.devRef .tc main_v1) := by
  show StableHlo.after hostOps0_5 (StableHlo.after hostOps0_4 (W4 m ρ c)) _ = _
  after_results_simp
theorem W6_arg0 (c : Dev nD) : W6 m ρ c (Proc.devRef .tc main_arg0) = W4 m ρ c (Proc.devRef .tc main_arg0) := by
  show StableHlo.after hostOps0_5 (StableHlo.after hostOps0_4 (W4 m ρ c)) _ = _
  after_results_simp

theorem W7_v0 (c : Dev nD) : W7 m ρ c (Proc.devRef .tc main_v0) = W6 m ρ c (Proc.devRef .tc main_v0) := by
  show StableHlo.after hostOps0_6 (W6 m ρ c) _ = _
  after_results_simp
theorem W7_v1 (c : Dev nD) : W7 m ρ c (Proc.devRef .tc main_v1) = W6 m ρ c (Proc.devRef .tc main_v1) := by
  show StableHlo.after hostOps0_6 (W6 m ρ c) _ = _
  after_results_simp
theorem W7_arg0 (c : Dev nD) : W7 m ρ c (Proc.devRef .tc main_arg0) = W6 m ρ c (Proc.devRef .tc main_arg0) := by
  show StableHlo.after hostOps0_6 (W6 m ρ c) _ = _
  after_results_simp

theorem W8_v0 (c : Dev nD) : W8 m ρ c (Proc.devRef .tc main_v0) = W7 m ρ c (Proc.devRef .tc main_v0) := by
  show StableHlo.after hostOps0_7 (W7 m ρ c) _ = _
  after_results_simp
theorem W8_v1 (c : Dev nD) : W8 m ρ c (Proc.devRef .tc main_v1) = W7 m ρ c (Proc.devRef .tc main_v1) := by
  show StableHlo.after hostOps0_7 (W7 m ρ c) _ = _
  after_results_simp
theorem W8_v3 (c : Dev nD) : W8 m ρ c (Proc.devRef .tc main_v3) = W7 m ρ c (Proc.devRef .tc main_v3) := by
  show StableHlo.after hostOps0_7 (W7 m ρ c) _ = _
  after_results_simp
theorem W8_arg0 (c : Dev nD) : W8 m ρ c (Proc.devRef .tc main_arg0) = W7 m ρ c (Proc.devRef .tc main_arg0) := by
  show StableHlo.after hostOps0_7 (W7 m ρ c) _ = _
  after_results_simp

theorem W9_v0 (c : Dev nD) : W9 m ρ c (Proc.devRef .tc main_v0) = W8 m ρ c (Proc.devRef .tc main_v0) :=
  W9_of_ne m ρ c main_v0 (by decide)
theorem W9_v1 (c : Dev nD) : W9 m ρ c (Proc.devRef .tc main_v1) = W8 m ρ c (Proc.devRef .tc main_v1) :=
  W9_of_ne m ρ c main_v1 (by decide)
theorem W9_arg0 (c : Dev nD) : W9 m ρ c (Proc.devRef .tc main_arg0) = W8 m ρ c (Proc.devRef .tc main_arg0) :=
  W9_of_ne m ρ c main_arg0 (by decide)
theorem W9_v3 (c : Dev nD) : W9 m ρ c (Proc.devRef .tc main_v3) = W8 m ρ c (Proc.devRef .tc main_v3) :=
  (W9_arr m ρ c 0).trans (((dat0 (V8 m ρ) c).arrAt_in 0 rfl _).trans (A_eq0 (V8 m ρ) c 0))

theorem W10_v0 (c : Dev nD) : W10 m ρ c (Proc.devRef .tc main_v0) = W9 m ρ c (Proc.devRef .tc main_v0) := by
  show StableHlo.after hostOps1 (W9 m ρ c) _ = _
  after_results_simp
theorem W10_v1 (c : Dev nD) : W10 m ρ c (Proc.devRef .tc main_v1) = W9 m ρ c (Proc.devRef .tc main_v1) := by
  show StableHlo.after hostOps1 (W9 m ρ c) _ = _
  after_results_simp
theorem W10_v3 (c : Dev nD) : W10 m ρ c (Proc.devRef .tc main_v3) = W9 m ρ c (Proc.devRef .tc main_v3) := by
  show StableHlo.after hostOps1 (W9 m ρ c) _ = _
  after_results_simp
theorem W10_arg0 (c : Dev nD) : W10 m ρ c (Proc.devRef .tc main_arg0) = W9 m ρ c (Proc.devRef .tc main_arg0) := by
  show StableHlo.after hostOps1 (W9 m ρ c) _ = _
  after_results_simp

theorem W11_v0 (c : Dev nD) : W11 m ρ c (Proc.devRef .tc main_v0) = W10 m ρ c (Proc.devRef .tc main_v0) :=
  W11_of_ne m ρ c main_v0 (by decide)
theorem W11_v1 (c : Dev nD) : W11 m ρ c (Proc.devRef .tc main_v1) = W10 m ρ c (Proc.devRef .tc main_v1) :=
  W11_of_ne m ρ c main_v1 (by decide)
theorem W11_v3 (c : Dev nD) : W11 m ρ c (Proc.devRef .tc main_v3) = W10 m ρ c (Proc.devRef .tc main_v3) :=
  W11_of_ne m ρ c main_v3 (by decide)
theorem W11_v8 (c : Dev nD) : W11 m ρ c (Proc.devRef .tc main_v8) = W10 m ρ c (Proc.devRef .tc main_v8) :=
  (W11_arr m ρ c 1).trans (((dat1 (V10 m ρ) c).arrAt_in 1 rfl _).trans (A_eq1 (V10 m ρ) c 1))

theorem W12_v0 (c : Dev nD) : W12 m ρ c (Proc.devRef .tc main_v0) = W11 m ρ c (Proc.devRef .tc main_v0) := by
  show StableHlo.after hostOps2 (W11 m ρ c) _ = _
  after_results_simp
theorem W12_v1 (c : Dev nD) : W12 m ρ c (Proc.devRef .tc main_v1) = W11 m ρ c (Proc.devRef .tc main_v1) := by
  show StableHlo.after hostOps2 (W11 m ρ c) _ = _
  after_results_simp
theorem W12_v3 (c : Dev nD) : W12 m ρ c (Proc.devRef .tc main_v3) = W11 m ρ c (Proc.devRef .tc main_v3) := by
  show StableHlo.after hostOps2 (W11 m ρ c) _ = _
  after_results_simp
theorem W12_v9 (c : Dev nD) : W12 m ρ c (Proc.devRef .tc main_v9) = W11 m ρ c (Proc.devRef .tc main_v9) := by
  show StableHlo.after hostOps2 (W11 m ρ c) _ = _
  after_results_simp

theorem W13_v0 (c : Dev nD) : W13 m ρ c (Proc.devRef .tc main_v0) = W12 m ρ c (Proc.devRef .tc main_v0) :=
  W13_of_ne m ρ c main_v0 (by decide)
theorem W13_v1 (c : Dev nD) : W13 m ρ c (Proc.devRef .tc main_v1) = W12 m ρ c (Proc.devRef .tc main_v1) :=
  W13_of_ne m ρ c main_v1 (by decide)
theorem W13_v9 (c : Dev nD) : W13 m ρ c (Proc.devRef .tc main_v9) = W12 m ρ c (Proc.devRef .tc main_v9) :=
  W13_of_ne m ρ c main_v9 (by decide)
theorem W13_v3 (c : Dev nD) : W13 m ρ c (Proc.devRef .tc main_v3) = W12 m ρ c (Proc.devRef .tc main_v3) :=
  (W13_arr m ρ c 0).trans (((dat2 (V12 m ρ) c).arrAt_in 0 rfl _).trans (A_eq2 (V12 m ρ) c 0))

theorem W14_v0 (c : Dev nD) : W14 m ρ c (Proc.devRef .tc main_v0) = W13 m ρ c (Proc.devRef .tc main_v0) := by
  show StableHlo.after hostOps3 (W13 m ρ c) _ = _
  after_results_simp
theorem W14_v1 (c : Dev nD) : W14 m ρ c (Proc.devRef .tc main_v1) = W13 m ρ c (Proc.devRef .tc main_v1) := by
  show StableHlo.after hostOps3 (W13 m ρ c) _ = _
  after_results_simp
theorem W14_v3 (c : Dev nD) : W14 m ρ c (Proc.devRef .tc main_v3) = W13 m ρ c (Proc.devRef .tc main_v3) := by
  show StableHlo.after hostOps3 (W13 m ρ c) _ = _
  after_results_simp
theorem W14_v9 (c : Dev nD) : W14 m ρ c (Proc.devRef .tc main_v9) = W13 m ρ c (Proc.devRef .tc main_v9) := by
  show StableHlo.after hostOps3 (W13 m ρ c) _ = _
  after_results_simp

theorem W15_v0 (c : Dev nD) : W15 m ρ c (Proc.devRef .tc main_v0) = W14 m ρ c (Proc.devRef .tc main_v0) :=
  W15_of_ne m ρ c main_v0 (by decide)
theorem W15_v1 (c : Dev nD) : W15 m ρ c (Proc.devRef .tc main_v1) = W14 m ρ c (Proc.devRef .tc main_v1) :=
  W15_of_ne m ρ c main_v1 (by decide)
theorem W15_v3 (c : Dev nD) : W15 m ρ c (Proc.devRef .tc main_v3) = W14 m ρ c (Proc.devRef .tc main_v3) :=
  W15_of_ne m ρ c main_v3 (by decide)
theorem W15_v14 (c : Dev nD) : W15 m ρ c (Proc.devRef .tc main_v14) = W14 m ρ c (Proc.devRef .tc main_v14) :=
  (W15_arr m ρ c 1).trans (((dat3 (V14 m ρ) c).arrAt_in 1 rfl _).trans (A_eq3 (V14 m ρ) c 1))

theorem W16_v0 (c : Dev nD) : W16 m ρ c (Proc.devRef .tc main_v0) = W15 m ρ c (Proc.devRef .tc main_v0) := by
  show StableHlo.after hostOps4 (W15 m ρ c) _ = _
  after_results_simp
theorem W16_v3 (c : Dev nD) : W16 m ρ c (Proc.devRef .tc main_v3) = W15 m ρ c (Proc.devRef .tc main_v3) := by
  show StableHlo.after hostOps4 (W15 m ρ c) _ = _
  after_results_simp
theorem W16_v15 (c : Dev nD) : W16 m ρ c (Proc.devRef .tc main_v15) = W15 m ρ c (Proc.devRef .tc main_v15) := by
  show StableHlo.after hostOps4 (W15 m ρ c) _ = _
  after_results_simp

theorem W17_v0 (c : Dev nD) : W17 m ρ c (Proc.devRef .tc main_v0) = W16 m ρ c (Proc.devRef .tc main_v0) :=
  W17_of_ne m ρ c main_v0 (by decide)
theorem W17_v15 (c : Dev nD) : W17 m ρ c (Proc.devRef .tc main_v15) = W16 m ρ c (Proc.devRef .tc main_v15) :=
  W17_of_ne m ρ c main_v15 (by decide)

theorem W18_v15 (c : Dev nD) : W18 m ρ c (Proc.devRef .tc main_v15) = W17 m ρ c (Proc.devRef .tc main_v15) := by
  show StableHlo.after hostOps5 (W17 m ρ c) _ = _
  after_results_simp

end Cert.KernelIdeal.Chain

end
-- ==== Proof.Chain.lean ====
/-
  The kernel's program from boundary to boundary: what the buffers that matter hold when each call is entered and
  left, as functions of the four argument arrays.

  The padded row indices, padded column indices and weight column are computed once, before the first call, and no
  later operation or call writes them: they are carried unchanged to wherever they are read. Each message call's
  output is the scaled take of the current node table; each scatter stretch turns it into the next node table; each
  accumulate call adds that table to the running sum (the last one also quartering). So the result array ends at
  a + L(a) + L(L(a)) + L(L(L(a))), all times one quarter, with a the embedding and L one layer over the padded lists.
-/
import proofs.«409824_j14431090114657_1_alg».proof.Proof.Gen.KernelIdeal.Frame
import proofs.«409824_j14431090114657_1_alg».proof.Proof.HostK
import proofs.«409824_j14431090114657_1_alg».proof.Proof.Msg0
import proofs.«409824_j14431090114657_1_alg».proof.Proof.Msg2
import proofs.«409824_j14431090114657_1_alg».proof.Proof.Msg4
import proofs.«409824_j14431090114657_1_alg».proof.Proof.Add1
import proofs.«409824_j14431090114657_1_alg».proof.Proof.Add3
import proofs.«409824_j14431090114657_1_alg».proof.Proof.Avg5
import proofs.«409824_j14431090114657_1_alg».proof.Proof.ChainKept

set_option maxRecDepth 16384
set_option maxHeartbeats 1000000

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Fns Cert.KernelIdeal.HostK

variable (m : (ℓ : Loc nD τ sig) → Buf (Elt Ideal) ℓ) (ρ : Dev nD → PrngReg)

/-! ## The arguments and the values along the way, at their literal types -/

abbrev emb (c : Dev nD) : S400000x64.Idx → EReal := m ((c : Thread nD τ).loc main_arg0)
abbrev rows (c : Dev nD) : IVec S4000000 32 := m ((c : Thread nD τ).loc main_arg1)
abbrev cols (c : Dev nD) : IVec S4000000 32 := m ((c : Thread nD τ).loc main_arg2)
abbrev wts (c : Dev nD) : S4000000.Idx → EReal := m ((c : Thread nD τ).loc main_arg3)

/-- One layer over the padded edge lists. -/
def L (c : Dev nD) (x : S400000x64.Idx → EReal) : S400000x64.Idx → EReal :=
  layer (padI (rows m c)) (padI (cols m c)) (asCol (padF (wts m c))) x
def x1 (c : Dev nD) := L m c (emb m c)
def a1 (c : Dev nD) := summed (emb m c) (x1 m c)
def x2 (c : Dev nD) := L m c (x1 m c)
def a2 (c : Dev nD) := summed (a1 m c) (x2 m c)
def x3 (c : Dev nD) := L m c (x2 m c)
/-- What the result array ends holding. -/
def out (c : Dev nD) := quartered (a2 m c) (x3 m c)

/-! ## Before the first call -/

theorem V2_v0 (c : Dev nD) : (W2 m ρ c (Proc.devRef .tc main_v0) : IVec S4005888 32) = padI (rows m c) :=
  rowp_after (W0 m ρ c)

theorem V4_v1 (c : Dev nD) : (W4 m ρ c (Proc.devRef .tc main_v1) : IVec S4005888 32) = padI (cols m c) :=
  (colp_after (W2 m ρ c)).trans (congrArg padI (W2_arg2 m ρ c))

theorem V6_v2 (c : Dev nD) : (W6 m ρ c (Proc.devRef .tc main_v2) : S4005888.Idx → EReal) = padF (wts m c) :=
  (valp_after (W4 m ρ c)).trans (congrArg padF ((W4_arg3 m ρ c).trans (W2_arg3 m ρ c)))

theorem V7_v3 (c : Dev nD) : (W7 m ρ c (Proc.devRef .tc main_v3) : S4005888x1.Idx → EReal) = asCol (padF (wts m c)) :=
  (wcol_after (W6 m ρ c)).trans (congrArg asCol (V6_v2 m ρ c))

/-! ## Region 0's entry -/

theorem V7_v0 (c : Dev nD) : (W7 m ρ c (Proc.devRef .tc main_v0) : IVec S4005888 32) = padI (rows m c) :=
  (W7_v0 m ρ c).trans ((W6_v0 m ρ c).trans ((W4_v0 m ρ c).trans (V2_v0 m ρ c)))
theorem V7_v1 (c : Dev nD) : (W7 m ρ c (Proc.devRef .tc main_v1) : IVec S4005888 32) = padI (cols m c) :=
  (W7_v1 m ρ c).trans ((W6_v1 m ρ c).trans (V4_v1 m ρ c))
theorem V7_arg0 (c : Dev nD) : (W7 m ρ c (Proc.devRef .tc main_arg0) : S400000x64.Idx → EReal) = emb m c :=
  (W7_arg0 m ρ c).trans ((W6_arg0 m ρ c).trans ((W4_arg0 m ρ c).trans (W2_arg0 m ρ c)))

theorem V8_v0 (c : Dev nD) : (W8 m ρ c (Proc.devRef .tc main_v0) : IVec S4005888 32) = padI (rows m c) := (W8_v0 m ρ c).trans (V7_v0 m ρ c)
theorem V8_v1 (c : Dev nD) : (W8 m ρ c (Proc.devRef .tc main_v1) : IVec S4005888 32) = padI (cols m c) := (W8_v1 m ρ c).trans (V7_v1 m ρ c)
theorem V8_v3 (c : Dev nD) : (W8 m ρ c (Proc.devRef .tc main_v3) : S4005888x1.Idx → EReal) = asCol (padF (wts m c)) := (W8_v3 m ρ c).trans (V7_v3 m ρ c)
theorem V8_arg0 (c : Dev nD) : (W8 m ρ c (Proc.devRef .tc main_arg0) : S400000x64.Idx → EReal) = emb m c := (W8_arg0 m ρ c).trans (V7_arg0 m ρ c)
theorem V8_v4 (c : Dev nD) : (W8 m ρ c (Proc.devRef .tc main_v4) : S4005888x64.Idx → EReal) = taken (emb m c) (padI (cols m c)) :=
  (taken_after (W7 m ρ c)).trans (congrArg₂ taken (V7_arg0 m ρ c) (V7_v1 m ρ c))

/-! ## Region 0: the first messages -/

theorem V9_v5 (c : Dev nD) : (W9 m ρ c (Proc.devRef .tc main_v5) : S4005888x64.Idx → EReal)
    = scaled (asCol (padF (wts m c))) (taken (emb m c) (padI (cols m c))) :=
  (W9_arr m ρ c 2).trans ((Msg0.arr (V8 m ρ) c).trans (congrArg₂ scaled (V8_v3 m ρ c) (V8_v4 m ρ c)))

/-! ## The first scatter, and region 1: the first sum -/

theorem V10_v0 (c : Dev nD) : (W10 m ρ c (Proc.devRef .tc main_v0) : IVec S4005888 32) = padI (rows m c) :=
  (W10_v0 m ρ c).trans ((W9_v0 m ρ c).trans (V8_v0 m ρ c))
theorem V10_v1 (c : Dev nD) : (W10 m ρ c (Proc.devRef .tc main_v1) : IVec S4005888 32) = padI (cols m c) :=
  (W10_v1 m ρ c).trans ((W9_v1 m ρ c).trans (V8_v1 m ρ c))
theorem V10_v3 (c : Dev nD) : (W10 m ρ c (Proc.devRef .tc main_v3) : S4005888x1.Idx → EReal) = asCol (padF (wts m c)) :=
  (W10_v3 m ρ c).trans ((W9_v3 m ρ c).trans (V8_v3 m ρ c))
theorem V10_arg0 (c : Dev nD) : (W10 m ρ c (Proc.devRef .tc main_arg0) : S400000x64.Idx → EReal) = emb m c :=
  (W10_arg0 m ρ c).trans ((W9_arg0 m ρ c).trans (V8_arg0 m ρ c))
theorem V10_v8 (c : Dev nD) : (W10 m ρ c (Proc.devRef .tc main_v8) : S400000x64.Idx → EReal) = x1 m c :=
  (gathered_after1 (W9 m ρ c)).trans (congrArg₂ gathered ((W9_v0 m ρ c).trans (V8_v0 m ρ c)) (V9_v5 m ρ c))

theorem V11_v9 (c : Dev nD) : (W11 m ρ c (Proc.devRef .tc main_v9) : S400000x64.Idx → EReal) = a1 m c :=
  (W11_arr m ρ c 2).trans ((Add1.arr (V10 m ρ) c).trans (congrArg₂ summed (V10_arg0 m ρ c) (V10_v8 m ρ c)))
theorem V11_v0 (c : Dev nD) : (W11 m ρ c (Proc.devRef .tc main_v0) : IVec S4005888 32) = padI (rows m c) := (W11_v0 m ρ c).trans (V10_v0 m ρ c)
theorem V11_v1 (c : Dev nD) : (W11 m ρ c (Proc.devRef .tc main_v1) : IVec S4005888 32) = padI (cols m c) := (W11_v1 m ρ c).trans (V10_v1 m ρ c)
theorem V11_v3 (c : Dev nD) : (W11 m ρ c (Proc.devRef .tc main_v3) : S4005888x1.Idx → EReal) = asCol (padF (wts m c)) := (W11_v3 m ρ c).trans (V10_v3 m ρ c)
theorem V11_v8 (c : Dev nD) : (W11 m ρ c (Proc.devRef .tc main_v8) : S400000x64.Idx → EReal) = x1 m c := (W11_v8 m ρ c).trans (V10_v8 m ρ c)

/-! ## The second take, region 2, the second scatter, region 3 -/

theorem V12_v0 (c : Dev nD) : (W12 m ρ c (Proc.devRef .tc main_v0) : IVec S4005888 32) = padI (rows m c) := (W12_v0 m ρ c).trans (V11_v0 m ρ c)
theorem V12_v1 (c : Dev nD) : (W12 m ρ c (Proc.devRef .tc main_v1) : IVec S4005888 32) = padI (cols m c) := (W12_v1 m ρ c).trans (V11_v1 m ρ c)
theorem V12_v3 (c : Dev nD) : (W12 m ρ c (Proc.devRef .tc main_v3) : S4005888x1.Idx → EReal) = asCol (padF (wts m c)) := (W12_v3 m ρ c).trans (V11_v3 m ρ c)
theorem V12_v9 (c : Dev nD) : (W12 m ρ c (Proc.devRef .tc main_v9) : S400000x64.Idx → EReal) = a1 m c := (W12_v9 m ρ c).trans (V11_v9 m ρ c)
theorem V12_v10 (c : Dev nD) : (W12 m ρ c (Proc.devRef .tc main_v10) : S4005888x64.Idx → EReal) = taken (x1 m c) (padI (cols m c)) :=
  (taken_after2 (W11 m ρ c)).trans (congrArg₂ taken (V11_v8 m ρ c) (V11_v1 m ρ c))

theorem V13_v11 (c : Dev nD) : (W13 m ρ c (Proc.devRef .tc main_v11) : S4005888x64.Idx → EReal)
    = scaled (asCol (padF (wts m c))) (taken (x1 m c) (padI (cols m c))) :=
  (W13_arr m ρ c 2).trans ((Msg2.arr (V12 m ρ) c).trans (congrArg₂ scaled (V12_v3 m ρ c) (V12_v10 m ρ c)))
theorem V13_v0 (c : Dev nD) : (W13 m ρ c (Proc.devRef .tc main_v0) : IVec S4005888 32) = padI (rows m c) := (W13_v0 m ρ c).trans (V12_v0 m ρ c)
theorem V13_v1 (c : Dev nD) : (W13 m ρ c (Proc.devRef .tc main_v1) : IVec S4005888 32) = padI (cols m c) := (W13_v1 m ρ c).trans (V12_v1 m ρ c)
theorem V13_v3 (c : Dev nD) : (W13 m ρ c (Proc.devRef .tc main_v3) : S4005888x1.Idx → EReal) = asCol (padF (wts m c)) := (W13_v3 m ρ c).trans (V12_v3 m ρ c)
theorem V13_v9 (c : Dev nD) : (W13 m ρ c (Proc.devRef .tc main_v9) : S400000x64.Idx → EReal) = a1 m c := (W13_v9 m ρ c).trans (V12_v9 m ρ c)

theorem V14_v0 (c : Dev nD) : (W14 m ρ c (Proc.devRef .tc main_v0) : IVec S4005888 32) = padI (rows m c) := (W14_v0 m ρ c).trans (V13_v0 m ρ c)
theorem V14_v1 (c : Dev nD) : (W14 m ρ c (Proc.devRef .tc main_v1) : IVec S4005888 32) = padI (cols m c) := (W14_v1 m ρ c).trans (V13_v1 m ρ c)
theorem V14_v3 (c : Dev nD) : (W14 m ρ c (Proc.devRef .tc main_v3) : S4005888x1.Idx → EReal) = asCol (padF (wts m c)) := (W14_v3 m ρ c).trans (V13_v3 m ρ c)
theorem V14_v9 (c : Dev nD) : (W14 m ρ c (Proc.devRef .tc main_v9) : S400000x64.Idx → EReal) = a1 m c := (W14_v9 m ρ c).trans (V13_v9 m ρ c)
theorem V14_v14 (c : Dev nD) : (W14 m ρ c (Proc.devRef .tc main_v14) : S400000x64.Idx → EReal) = x2 m c :=
  (gathered_after3 (W13 m ρ c)).trans (congrArg₂ gathered (V13_v0 m ρ c) (V13_v11 m ρ c))

theorem V15_v15 (c : Dev nD) : (W15 m ρ c (Proc.devRef .tc main_v15) : S400000x64.Idx → EReal) = a2 m c :=
  (W15_arr m ρ c 2).trans ((Add3.arr (V14 m ρ) c).trans (congrArg₂ summed (V14_v9 m ρ c) (V14_v14 m ρ c)))
theorem V15_v0 (c : Dev nD) : (W15 m ρ c (Proc.devRef .tc main_v0) : IVec S4005888 32) = padI (rows m c) := (W15_v0 m ρ c).trans (V14_v0 m ρ c)
theorem V15_v1 (c : Dev nD) : (W15 m ρ c (Proc.devRef .tc main_v1) : IVec S4005888 32) = padI (cols m c) := (W15_v1 m ρ c).trans (V14_v1 m ρ c)
theorem V15_v3 (c : Dev nD) : (W15 m ρ c (Proc.devRef .tc main_v3) : S4005888x1.Idx → EReal) = asCol (padF (wts m c)) := (W15_v3 m ρ c).trans (V14_v3 m ρ c)
theorem V15_v14 (c : Dev nD) : (W15 m ρ c (Proc.devRef .tc main_v14) : S400000x64.Idx → EReal) = x2 m c := (W15_v14 m ρ c).trans (V14_v14 m ρ c)

/-! ## The third take, region 4, the third scatter, region 5 -/

theorem V16_v0 (c : Dev nD) : (W16 m ρ c (Proc.devRef .tc main_v0) : IVec S4005888 32) = padI (rows m c) := (W16_v0 m ρ c).trans (V15_v0 m ρ c)
theorem V16_v3 (c : Dev nD) : (W16 m ρ c (Proc.devRef .tc main_v3) : S4005888x1.Idx → EReal) = asCol (padF (wts m c)) := (W16_v3 m ρ c).trans (V15_v3 m ρ c)
theorem V16_v15 (c : Dev nD) : (W16 m ρ c (Proc.devRef .tc main_v15) : S400000x64.Idx → EReal) = a2 m c := (W16_v15 m ρ c).trans (V15_v15 m ρ c)
theorem V16_v16 (c : Dev nD) : (W16 m ρ c (Proc.devRef .tc main_v16) : S4005888x64.Idx → EReal) = taken (x2 m c) (padI (cols m c)) :=
  (taken_after4 (W15 m ρ c)).trans (congrArg₂ taken (V15_v14 m ρ c) (V15_v1 m ρ c))

theorem V17_v17 (c : Dev nD) : (W17 m ρ c (Proc.devRef .tc main_v17) : S4005888x64.Idx → EReal)
    = scaled (asCol (padF (wts m c))) (taken (x2 m c) (padI (cols m c))) :=
  (W17_arr m ρ c 2).trans ((Msg4.arr (V16 m ρ) c).trans (congrArg₂ scaled (V16_v3 m ρ c) (V16_v16 m ρ c)))
theorem V17_v0 (c : Dev nD) : (W17 m ρ c (Proc.devRef .tc main_v0) : IVec S4005888 32) = padI (rows m c) := (W17_v0 m ρ c).trans (V16_v0 m ρ c)
theorem V17_v15 (c : Dev nD) : (W17 m ρ c (Proc.devRef .tc main_v15) : S400000x64.Idx → EReal) = a2 m c := (W17_v15 m ρ c).trans (V16_v15 m ρ c)

theorem V18_v15 (c : Dev nD) : (W18 m ρ c (Proc.devRef .tc main_v15) : S400000x64.Idx → EReal) = a2 m c := (W18_v15 m ρ c).trans (V17_v15 m ρ c)
theorem V18_v20 (c : Dev nD) : (W18 m ρ c (Proc.devRef .tc main_v20) : S400000x64.Idx → EReal) = x3 m c :=
  (gathered_after5 (W17 m ρ c)).trans (congrArg₂ gathered (V17_v0 m ρ c) (V17_v17 m ρ c))

/-- THE RESULT: after the last call the result array holds the quartered running sum over the three layers. -/
theorem result (c : Dev nD) : (W19 m ρ c (Proc.devRef .tc main_v21) : S400000x64.Idx → EReal) = out m c :=
  (W19_arr m ρ c 2).trans ((Avg5.arr (V18 m ρ) c).trans (congrArg₂ quartered (V18_v15 m ρ c) (V18_v20 m ρ c)))

end Cert.KernelIdeal.Chain

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.PreCol.lean ====
/-
  What the precondition says of the column indices: each is at least zero and below 400000 as a signed number, so as
  an unsigned number it is below 400000 — it names a row of the node table.

  The precondition is the conjunction of three all-reductions; the third runs over the edges and tests, per edge,
  "column ≥ 0" and "column < 400000". A conjunction that is true has true conjuncts, and an all-reduction that is
  true had a true entry at every index.
-/
import proofs.«409824_j14431090114657_1_alg».proof.Pre_finite_inputs
import proofs.«409824_j14431090114657_1_alg».proof.Proof.Gen.Pre_finite_inputs
import proofs.«409824_j14431090114657_1_alg».proof.Proof.LibAllOnes
import Idealize.ShloMosaic.Lib.ReduceAll
import Idealize.ShloMosaic.Lib.ValueIdx
import Idealize.ShloMosaic.PureOps.Ideal

noncomputable section

namespace Cert.PreCol

open Idealize.ShloMosaic Idealize.ShloMosaic.ValueIdx Cert.Pre_finite_inputs

instance : Subsingleton S_.Idx := ⟨fun a b => funext fun d => d.elim0⟩

theorem col_inRange (a0 : FVec Ideal S400000x64 .f32) (a1 a2 : IVec S4000000 32) (a3 : FVec Ideal S4000000 .f32)
    (h : fn (F := Ideal) a0 a1 a2 a3 = fun _ => 1#1) (e : Fin 4000000) : (a2 (ix1 e)).toNat < 400000 := by
  have h0 : fn (F := Ideal) a0 a1 a2 a3 ix0 = 1#1 := congrFun h ix0
  dsimp only [fn] at h0
  have h1 := (IntOp.andi_eq_one.mp h0).2
  have h2 := Host.reduce_andi_all _ _ _ _ ix0 h1 (ix1 e)
  have h3 := IntOp.andi_eq_one.mp h2
  exact Cert.LibAllOnes.toNat_lt_of_signed _ 400000 (by decide) h3.1 h3.2

end Cert.PreCol

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.LayerLaw.lean ====
/-
  One layer of the kernel's program equals one layer of the reference, on column indices that name rows of the table.

  Both sum, into node b and feature d, the products weight(e) · x[col(e), d] over the edges e whose row index is b.
  The kernel runs over 4005888 edges, the last 5888 of them padding with row 0, column 0 and weight 0: a padding
  edge contributes x[0, d] · 0 = 0 to node 0, so the sum over the padded list is the sum over the 4000000 real edges
  (a sum over a longer range whose extra terms vanish). On a real edge the kernel takes row col(e) of the table —
  the index is not negative, so it is not wrapped, and it is inside the table, so the filler pattern is not chosen —
  and the reference gathers the same row (its clamp does nothing there); the two products differ only in the order of
  the factors.
-/
import proofs.«409824_j14431090114657_1_alg».proof.Proof.HostK
import proofs.«409824_j14431090114657_1_alg».proof.Proof.LibScatterAddRows
import proofs.«409824_j14431090114657_1_alg».proof.Proof.LibGatherRows
import proofs.«409824_j14431090114657_1_alg».proof.Proof.LibAllOnes
import proofs.«409824_j14431090114657_1_alg».proof.ReferenceIdeal
import proofs.«409824_j14431090114657_1_alg».proof.Proof.Gen.ReferenceIdeal
import Idealize.ShloMosaic.Lib.Pipeline.Value
import Idealize.ShloMosaic.Lib.KernelVsHost
import Idealize.ShloMosaic.Lib.ValueIdx

set_option maxRecDepth 16384

noncomputable section

open scoped BigOperators

namespace Cert.Law

open Idealize.ShloMosaic Idealize.ShloMosaic.ValueIdx
open Idealize.ShloMosaic.ScatterAddRows Idealize.ShloMosaic.GatherRows
open Cert.KernelIdeal Cert.KernelIdeal.Gen Cert.KernelIdeal.Fns Cert.KernelIdeal.HostK

/-! ## A sum over a longer range whose extra terms vanish -/

theorem sum_castLE {M : Type} [AddCommMonoid M] {n p : ℕ} (h : n ≤ p) (f : Fin p → M)
    (hz : ∀ e : Fin p, n ≤ e.val → f e = 0) : ∑ e, f e = ∑ e : Fin n, f (Fin.castLE h e) := by
  have hm : ∑ e : Fin n, f (Fin.castLE h e) = ∑ e ∈ Finset.univ.map (Fin.castLEEmb h), f e := by
    rw [Finset.sum_map]; rfl
  rw [hm]
  symm
  refine Finset.sum_subset (Finset.subset_univ _) fun e _ hne => hz e ?_
  by_contra hlt
  exact hne (Finset.mem_map.mpr ⟨⟨e.val, by omega⟩, Finset.mem_univ _, Fin.ext rfl⟩)

/-! ## The padded lists read at an edge -/

theorem hle : 4000000 ≤ 4005888 := by decide

/-- A real edge's entry of a padded index list is the list's entry. -/
theorem padI_inside (x : IVec S4000000 32) (e : Fin 4000000) : padI x (ix1 (Fin.castLE hle e)) = x (ix1 e) := by
  unfold padI
  refine pad_apply_of_inside _ _ _ x _ _ _ _ (ix1 e) fun a => ?_
  match a with
  | ⟨0, _⟩ => show e.val = 0 + e.val * (0 + 1); omega

/-- A padding edge's entry of a padded index list is the zero word. -/
theorem padI_outside (x : IVec S4000000 32) (e : Fin 4005888) (he : 4000000 ≤ e.val) : padI x (ix1 e) = 0#32 := by
  unfold padI
  refine (pad_apply_of_not_inside _ _ _ x _ _ _ (ix1 e) (0 : Fin 1) ?_).trans rfl
  rintro ⟨-, -, h3⟩
  have h3' : (e.val - 0) / (0 + 1) < 4000000 := h3
  omega

theorem padF_inside (x : S4000000.Idx → EReal) (e : Fin 4000000) : padF x (ix1 (Fin.castLE hle e)) = x (ix1 e) := by
  unfold padF
  refine pad_apply_of_inside _ _ _ x _ _ _ _ (ix1 e) fun a => ?_
  match a with
  | ⟨0, _⟩ => show e.val = 0 + e.val * (0 + 1); omega

/-- A padding edge's weight is the integer zero converted: the real zero. -/
theorem padF_outside (x : S4000000.Idx → EReal) (e : Fin 4005888) (he : 4000000 ≤ e.val) : padF x (ix1 e) = 0 := by
  unfold padF
  refine (pad_apply_of_not_inside _ _ _ x _ _ _ (ix1 e) (0 : Fin 1) ?_).trans ?_
  · rintro ⟨-, -, h3⟩
    have h3' : (e.val - 0) / (0 + 1) < 4000000 := h3
    omega
  · show (((0#32 : BitVec 32).toInt : ℝ) : EReal) = 0
    simp

/-- The weight column at edge e is the weight list's entry e. -/
theorem asCol_apply (v : S4005888.Idx → EReal) (e : Fin 4005888) : asCol v (ix2 e (0 : Fin 1)) = v (ix1 e) := by
  unfold asCol
  refine shapeCast_apply v _ _ (ix1 e) ?_
  rw [Shape.rowMajor_val_one, Shape.rowMajor_val_two]
  show e.val = e.val * 1 + 0
  omega

/-! ## The take read at an edge -/

theorem hN : 0 < 400000 := by decide

/-- A column index below 2³¹ is not negative, so it is not wrapped. -/
theorem wrapped_apply (colp : IVec S4005888 32) (e : Fin 4005888) (h : (colp (ix1 e)).toNat < 2 ^ 31) :
    wrapped colp (ix2 e (0 : Fin 1)) = colp (ix1 e) := by
  unfold wrapped
  rw [broadcastInDim_apply _ _ _ (ix2 e (0 : Fin 1)) (ix1 e) (fun a => by match a with | ⟨0, _⟩ => rfl)]
  show Scalar.select (IntOp.cmpi .slt (colp (ix1 e)) 0#32) _ (colp (ix1 e)) = colp (ix1 e)
  rw [Cert.LibAllOnes.slt_zero _ h]
  exact select_zero _ _

/-- When every padded column index names a row of the table, every edge passes the in-table test. -/
theorem inTable_one (colp : IVec S4005888 32) (hall : ∀ e : Fin 4005888, (colp (ix1 e)).toNat < 400000) (e : Fin 4005888) :
    inTable (wrapped colp) (ix1 e) = 1#1 := by
  unfold inTable
  refine Cert.LibAllOnes.reduce_andi_ones _ _ _ _ _ (fun _ => rfl) fun i => ?_
  obtain ⟨p, q, rfl⟩ : ∃ (p : Fin 4005888) (q : Fin 1), i = ix2 p q := ⟨i 0, i 1, eq_ix2 i⟩
  obtain rfl : q = 0 := Subsingleton.elim _ _
  have hp := hall p
  show IntOp.andi (IntOp.cmpi .sge (wrapped colp (ix2 p (0 : Fin 1))) 0#32)
    (IntOp.cmpi .sle (wrapped colp (ix2 p (0 : Fin 1))) 399999#32) = 1#1
  rw [wrapped_apply colp p (by omega)]
  rw [Cert.LibAllOnes.sge_zero _ (by omega), Cert.LibAllOnes.sle_ofNat _ 399999 (by decide) (by omega)]
  decide

/-- The take at edge e and feature d is the table's row col(e), feature d. -/
theorem taken_apply (x : S400000x64.Idx → EReal) (colp : IVec S4005888 32)
    (hall : ∀ e : Fin 4005888, (colp (ix1 e)).toNat < 400000) (e : Fin 4005888) (d : Fin 64) :
    taken x colp (ix2 e d) = x (ix2 (clampPos 400000 hN (colp (ix1 e))) d) := by
  have he := hall e
  unfold taken
  rw [select_apply]
  rw [broadcastInDim_apply _ _ (inTable (wrapped colp)) (ix2 e d) (ix1 e) (fun a => by match a with | ⟨0, _⟩ => rfl)]
  rw [inTable_one colp hall e, select_one]
  refine (gather_col_apply hN (gather_S400000x64_S4005888x1_S4005888x64_1_0_n_n_0_1_164).wf x (wrapped colp) (ix2 e d)).trans ?_
  show x (ix2 (clampPos 400000 hN (wrapped colp (ix2 e (0 : Fin 1)))) d) = _
  rw [wrapped_apply colp e (by omega)]

end Cert.Law

end
-- ==== Proof.LayerRef.lean ====
/-
  The two layers, read at a node and a feature as the same sum over the edges, and so equal.
-/
import proofs.«409824_j14431090114657_1_alg».proof.Proof.LayerLaw

set_option maxRecDepth 16384

noncomputable section

open scoped BigOperators

namespace Cert.Law

open Idealize.ShloMosaic Idealize.ShloMosaic.ValueIdx
open Idealize.ShloMosaic.ScatterAddRows Idealize.ShloMosaic.GatherRows
open Cert.KernelIdeal Cert.KernelIdeal.Gen Cert.KernelIdeal.Fns Cert.KernelIdeal.HostK

/-! ## The reference's layer -/

/-- One layer of the reference, as its run's term spells it: the table gathered at the (wrapped) column indices,
    scaled by the weights, summed into a table of zeros at the row indices. -/
def refLayer (row col : IVec S4000000 32) (val : S4000000.Idx → EReal) (x : S400000x64.Idx → EReal) : S400000x64.Idx → EReal :=
  Host.scatterAdd (F := Ideal) Cert.ReferenceIdeal.scatter_S400000x64_S4000000x1_S4000000x64_1_0_0_1
    (broadcastInDim Cert.ReferenceIdeal.S400000x64 ![] Cert.ReferenceIdeal.Gen.bcast_S_S400000x64 (constant (F := Ideal) Cert.ReferenceIdeal.S_ .f32 0x00000000#32))
    (broadcastInDim Cert.ReferenceIdeal.S4000000x1 ![0] Cert.ReferenceIdeal.Gen.bcast_S4000000_S4000000x1_0 row)
    (mulf (F := Ideal) (φ := .f32)
      (broadcastInDim Cert.ReferenceIdeal.S4000000x64 ![0, 1] Cert.ReferenceIdeal.Gen.bcast_S4000000x1_S4000000x64_0_1
        (broadcastInDim Cert.ReferenceIdeal.S4000000x1 ![0] Cert.ReferenceIdeal.Gen.bcast_S4000000_S4000000x1_0 val))
      (Host.gather Cert.ReferenceIdeal.gather_S400000x64_S4000000x1_S4000000x64_1_0_n_n_0_1_164 x
        (broadcastInDim Cert.ReferenceIdeal.S4000000x1 ![0] Cert.ReferenceIdeal.Gen.bcast_S4000000_S4000000x1_0
          (select (cmpi .slt col (broadcastInDim Cert.ReferenceIdeal.S4000000 ![] Cert.ReferenceIdeal.Gen.bcast_S_S4000000 (constantI Cert.ReferenceIdeal.S_ 32 0#32)))
            (addi col (broadcastInDim Cert.ReferenceIdeal.S4000000 ![] Cert.ReferenceIdeal.Gen.bcast_S_S4000000 (constantI Cert.ReferenceIdeal.S_ 32 400000#32)))
            col))))

/-- The reference's scaled message at edge e and feature d: the weight of e times the table's row col(e), feature d. -/
theorem refMsg_apply (col : IVec S4000000 32) (val : S4000000.Idx → EReal) (x : S400000x64.Idx → EReal)
    (e : Fin 4000000) (d : Fin 64) (h : (col (ix1 e)).toNat < 2 ^ 31) :
    (mulf (F := Ideal) (φ := .f32)
      (broadcastInDim Cert.ReferenceIdeal.S4000000x64 ![0, 1] Cert.ReferenceIdeal.Gen.bcast_S4000000x1_S4000000x64_0_1
        (broadcastInDim Cert.ReferenceIdeal.S4000000x1 ![0] Cert.ReferenceIdeal.Gen.bcast_S4000000_S4000000x1_0 val))
      (Host.gather Cert.ReferenceIdeal.gather_S400000x64_S4000000x1_S4000000x64_1_0_n_n_0_1_164 x
        (broadcastInDim Cert.ReferenceIdeal.S4000000x1 ![0] Cert.ReferenceIdeal.Gen.bcast_S4000000_S4000000x1_0
          (select (cmpi .slt col (broadcastInDim Cert.ReferenceIdeal.S4000000 ![] Cert.ReferenceIdeal.Gen.bcast_S_S4000000 (constantI Cert.ReferenceIdeal.S_ 32 0#32)))
            (addi col (broadcastInDim Cert.ReferenceIdeal.S4000000 ![] Cert.ReferenceIdeal.Gen.bcast_S_S4000000 (constantI Cert.ReferenceIdeal.S_ 32 400000#32)))
            col)))) (ix2 e d)
      = val (ix1 e) * x (ix2 (clampPos 400000 hN (col (ix1 e))) d) := by
  rw [mulf_apply]
  congr 1
  · rw [broadcastInDim_apply _ _ _ (ix2 e d) (ix2 e (0 : Fin 1)) (fun a => by match a with | ⟨0, _⟩ => rfl | ⟨1, _⟩ => rfl)]
    exact broadcastInDim_apply _ _ _ (ix2 e (0 : Fin 1)) (ix1 e) (fun a => by match a with | ⟨0, _⟩ => rfl)
  · refine (gather_col_apply hN (Cert.ReferenceIdeal.gather_S400000x64_S4000000x1_S4000000x64_1_0_n_n_0_1_164).wf x _ (ix2 e d)).trans ?_
    congr 3
    refine (broadcastInDim_apply _ _ _ (ix2 e (0 : Fin 1)) (ix1 e) (fun a => by match a with | ⟨0, _⟩ => rfl)).trans ?_
    show Scalar.select (IntOp.cmpi .slt (col (ix1 e)) 0#32) _ (col (ix1 e)) = col (ix1 e)
    rw [Cert.LibAllOnes.slt_zero _ h]
    exact select_zero _ _

end Cert.Law

end
-- ==== Proof.LayerEq.lean ====
/-
  The two layers, read at a node and a feature as the same sum over the edges, and so equal.

  At node b and feature c each layer is zero plus the sum, over the edges whose row index is b, of that edge's scaled
  message at feature c. The kernel's sum runs over the padded edge list; its padding edges carry the weight zero, so
  their messages vanish, and on the real edges the padded lists read the lists themselves.
-/
import proofs.«409824_j14431090114657_1_alg».proof.Proof.LayerRef

set_option maxRecDepth 16384

noncomputable section

open scoped BigOperators

namespace Cert.Law

open Idealize.ShloMosaic Idealize.ShloMosaic.ValueIdx
open Idealize.ShloMosaic.ScatterAddRows Idealize.ShloMosaic.GatherRows
open Cert.KernelIdeal Cert.KernelIdeal.Gen Cert.KernelIdeal.Fns Cert.KernelIdeal.HostK

/-- At the extended reals the host's accumulating scatter is the exact sum. -/
theorem scatterAdd_ideal {s si u : Shape} {w : Nat} (d : ScatterDims s si u) (z : s.Idx → EReal) (i : IVec si w)
    (up : u.Idx → EReal) : Host.scatterAdd (F := Ideal) (φ := .f32) d z i up = Ideal.hostScatterAdd d z i up := rfl

/-- The two printed scatters are scatters of whole rows into a two-axis table. -/
theorem scatterK_eq : scatter_S400000x64_S4005888x1_S4005888x64_1_0_0_1
    = rowsDims 400000 64 4005888 scatter_S400000x64_S4005888x1_S4005888x64_1_0_0_1_wf := rfl
theorem scatterR_eq : Cert.ReferenceIdeal.scatter_S400000x64_S4000000x1_S4000000x64_1_0_0_1
    = rowsDims 400000 64 4000000 Cert.ReferenceIdeal.Gen.scatter_S400000x64_S4000000x1_S4000000x64_1_0_0_1_wf := rfl

/-- The table of zeros reads the zero pattern everywhere. -/
theorem zerosK_apply (i : S400000x64.Idx) :
    (broadcastInDim S400000x64 ![] bcast_S_S400000x64 (constant (F := Ideal) S_ .f32 0x00000000#32)) i
      = Ideal.ofBits .f32 0x00000000#32 := rfl
theorem zerosR_apply (i : S400000x64.Idx) :
    (broadcastInDim Cert.ReferenceIdeal.S400000x64 ![] Cert.ReferenceIdeal.Gen.bcast_S_S400000x64
      (constant (F := Ideal) Cert.ReferenceIdeal.S_ .f32 0x00000000#32)) i = Ideal.ofBits .f32 0x00000000#32 := rfl

/-- An index list laid out as a column reads the list. -/
theorem colK_apply (v : IVec S4005888 32) (e : Fin 4005888) :
    (broadcastInDim S4005888x1 ![0] bcast_S4005888_S4005888x1_0 v) (ix2 e (0 : Fin 1)) = v (ix1 e) :=
  broadcastInDim_apply _ _ v (ix2 e (0 : Fin 1)) (ix1 e) (fun a => by match a with | ⟨0, _⟩ => rfl)
theorem colR_apply (v : IVec S4000000 32) (e : Fin 4000000) :
    (broadcastInDim Cert.ReferenceIdeal.S4000000x1 ![0] Cert.ReferenceIdeal.Gen.bcast_S4000000_S4000000x1_0 v) (ix2 e (0 : Fin 1)) = v (ix1 e) :=
  broadcastInDim_apply _ _ v (ix2 e (0 : Fin 1)) (ix1 e) (fun a => by match a with | ⟨0, _⟩ => rfl)

/-- The kernel's layer at node b and feature c. -/
theorem layer_apply (rowp colp : IVec S4005888 32) (w : S4005888x1.Idx → EReal) (x : S400000x64.Idx → EReal)
    (b : Fin 400000) (c : Fin 64) :
    layer rowp colp w x (ix2 b c)
      = Ideal.ofBits .f32 0x00000000#32
        + ∑ e : Fin 4005888, if (rowp (ix1 e)).toInt = (b.val : Int) then scaled w (taken x colp) (ix2 e c) else 0 := by
  unfold layer gathered
  rw [scatterAdd_ideal, scatterK_eq, scatterAdd_rows_apply, zerosK_apply]
  refine congrArg (Ideal.ofBits .f32 0x00000000#32 + ·) (Finset.sum_congr rfl fun e _ => ?_)
  rw [colK_apply]

/-- The reference's layer at node b and feature c. -/
theorem refLayer_apply (row col : IVec S4000000 32) (val : S4000000.Idx → EReal) (x : S400000x64.Idx → EReal)
    (hcol : ∀ e : Fin 4000000, (col (ix1 e)).toNat < 400000) (b : Fin 400000) (c : Fin 64) :
    refLayer row col val x (ix2 b c)
      = Ideal.ofBits .f32 0x00000000#32
        + ∑ e : Fin 4000000, if (row (ix1 e)).toInt = (b.val : Int)
            then val (ix1 e) * x (ix2 (clampPos 400000 hN (col (ix1 e))) c) else 0 := by
  unfold refLayer
  rw [scatterAdd_ideal, scatterR_eq, scatterAdd_rows_apply, zerosR_apply]
  refine congrArg (Ideal.ofBits .f32 0x00000000#32 + ·) (Finset.sum_congr rfl fun e _ => ?_)
  rw [colR_apply, refMsg_apply col val x e c (by have := hcol e; omega)]

/-- Every padded column index names a row of the table when every column index does. -/
theorem padded_inRange (col : IVec S4000000 32) (hcol : ∀ e : Fin 4000000, (col (ix1 e)).toNat < 400000) (e : Fin 4005888) :
    (padI col (ix1 e)).toNat < 400000 := by
  by_cases he : e.val < 4000000
  · have h := padI_inside col ⟨e.val, he⟩
    rw [show Fin.castLE hle ⟨e.val, he⟩ = e from Fin.ext rfl] at h
    rw [h]; exact hcol _
  · rw [padI_outside col e (by omega)]; decide

/-- ONE LAYER: on column indices that name rows of the table, the kernel's layer over the padded edge lists is the
    reference's layer over the edge lists. -/
theorem layer_eq (row col : IVec S4000000 32) (val : S4000000.Idx → EReal)
    (hcol : ∀ e : Fin 4000000, (col (ix1 e)).toNat < 400000) (x : S400000x64.Idx → EReal) :
    layer (padI row) (padI col) (asCol (padF val)) x = refLayer row col val x := by
  have hall := padded_inRange col hcol
  funext i
  obtain ⟨b, c, rfl⟩ : ∃ (b : Fin 400000) (c : Fin 64), i = ix2 b c := ⟨i 0, i 1, eq_ix2 i⟩
  rw [layer_apply, refLayer_apply row col val x hcol]
  refine congrArg (Ideal.ofBits .f32 0x00000000#32 + ·) ?_
  refine (sum_castLE hle _ ?_).trans (Finset.sum_congr rfl fun e _ => ?_)
  · -- a padding edge's message is the take times the weight zero
    intro e he
    have hz : scaled (asCol (padF val)) (taken x (padI col)) (ix2 e c) = 0 := by
      show taken x (padI col) (ix2 e c) * asCol (padF val) (ix2 e (0 : Fin 1)) = 0
      rw [asCol_apply, padF_outside val e he, mul_zero]
    rw [hz]; exact ite_self 0
  · rw [padI_inside]
    refine if_congr Iff.rfl ?_ rfl
    show taken x (padI col) (ix2 (Fin.castLE hle e) c) * asCol (padF val) (ix2 (Fin.castLE hle e) (0 : Fin 1)) = _
    rw [taken_apply x (padI col) hall, asCol_apply, padF_inside, padI_inside, mul_comm]

end Cert.Law

end
-- ==== Proof.Consts.lean ====
/-
  The two float constants the programs spell, as the reals their bit patterns denote: the kernel's 0.25 is one
  quarter and the reference's 4.0 is four, exactly.
-/
import Idealize.ShloMosaic.PureOps.Ideal

noncomputable section

namespace Cert.Consts

open Idealize.ShloMosaic

theorem ofBits_four : Ideal.ofBits .f32 0x40800000#32 = ((4 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

end Cert.Consts

end
-- ==== Proof.Final.lean ====
/-
  The two programs' results are one function of the arguments.

  The kernel's result is (((a + x₁) + x₂) + x₃) · ¼ with xₖ₊₁ the kernel's layer of xₖ (x₀ = a the embedding); the
  reference's is (((a + y₁) + y₂) + y₃) / 4 with yₖ₊₁ the reference's layer of yₖ. The layers are equal on column
  indices that name rows of the table, so xₖ = yₖ; the sums are then the same extended real, and dividing an extended
  real by 4 is multiplying it by ¼ (at the infinities too).
-/
import proofs.«409824_j14431090114657_1_alg».proof.Proof.LayerEq
import proofs.«409824_j14431090114657_1_alg».proof.Proof.Chain
import proofs.«409824_j14431090114657_1_alg».proof.Proof.Consts
import proofs.«409824_j14431090114657_1_alg».proof.Proof.Gen.ReferenceIdeal.Run

set_option maxRecDepth 16384

noncomputable section

namespace Cert.Final

open Idealize.ShloMosaic Idealize.ShloMosaic.TcCoe Idealize.SL.Sem Idealize.ShloMosaic.ValueIdx
open Cert.KernelIdeal Cert.KernelIdeal.Fns Cert.KernelIdeal.HostK Cert.Law

/-- The reference's result as a function of the four argument arrays: three layers accumulated, the sum over four. -/
def refOut (E : S400000x64.Idx → EReal) (row col : IVec S4000000 32) (val : S4000000.Idx → EReal) : S400000x64.Idx → EReal :=
  Host.divf (F := Ideal) (φ := .f32)
    (addf (addf (addf E (refLayer row col val E)) (refLayer row col val (refLayer row col val E)))
      (refLayer row col val (refLayer row col val (refLayer row col val E))))
    (broadcastInDim Cert.ReferenceIdeal.S400000x64 ![] Cert.ReferenceIdeal.Gen.bcast_S_S400000x64
      (constant (F := Ideal) Cert.ReferenceIdeal.S_ .f32 0x40800000#32))

/-- The kernel's result is the reference's function of the kernel's arguments. -/
theorem out_eq (m : (ℓ : Loc nD τ sig) → Buf (Elt Ideal) ℓ) (c : Dev nD)
    (hcol : ∀ e : Fin 4000000, (Chain.cols m c (ix1 e)).toNat < 400000) :
    Chain.out m c = refOut (Chain.emb m c) (Chain.rows m c) (Chain.cols m c) (Chain.wts m c) := by
  have hL : Chain.L m c = refLayer (Chain.rows m c) (Chain.cols m c) (Chain.wts m c) :=
    funext fun x => layer_eq _ _ _ hcol x
  unfold Chain.out Chain.a2 Chain.x3 Chain.a1 Chain.x2 Chain.x1
  rw [hL]
  unfold refOut quartered summed
  funext i
  show (_ : EReal) * Ideal.ofBits .f32 0x3E800000#32 = Ideal.div _ (Ideal.ofBits .f32 0x40800000#32)
  rw [Cert.Consts.ofBits_quarter, Cert.Consts.ofBits_four, Ideal.div_coe (by norm_num : (4 : ℝ) ≠ 0)]
  rfl

/-- The reference run's composed term is that function of the reference's arguments. -/
theorem ref_eq (m' : (ℓ : Loc Cert.ReferenceIdeal.nD Cert.ReferenceIdeal.τ Cert.ReferenceIdeal.sig) → Buf (Elt Ideal) ℓ)
    (c : Dev Cert.ReferenceIdeal.nD) :
    (Cert.ReferenceIdeal.Value.res_main_v43 m' c : S400000x64.Idx → EReal)
      = refOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) := by
  unfold Cert.ReferenceIdeal.Value.res_main_v43 refOut refLayer
  rfl

end Cert.Final

end
-- ==== Proof.lean ====
/-
  LightGCN propagation, three layers with a running mean: the Pallas program against its jnp reference, over the
  extended reals, on column indices that name rows of the node table.

  Each layer is sparse-adjacency times dense-embedding: gather the neighbours' rows, scale each by its edge weight,
  sum by destination node. The kernel's program pads the edge lists to a multiple of its tile (padding edges weigh
  zero, so they add nothing), does the scaling and the running sum in six tiled calls, and multiplies the final sum by
  one quarter where the reference divides by four. Its take of the table marks an index outside the table with a
  filler pattern where the reference's gather clamps: the two agree exactly where the column indices name rows of the
  table, which is the precondition's third conjunct.

  The frames of the two kernel programs are the generated ones; the reference's frame is its generated run with the
  result dropped. No rewrite was applied when the kernel was idealized, so there is nothing to preserve. For the
  value claim the kernel's run is taken with its result array named, the array is followed from boundary to boundary
  down to a function of the arguments (Chain), and that function is the reference's (Final, over LayerEq).
-/
import proofs.«409824_j14431090114657_1_alg».proof.Defs
import proofs.«409824_j14431090114657_1_alg».proof.Proof.Gen.Kernel
import proofs.«409824_j14431090114657_1_alg».proof.Proof.Gen.Kernel.Skeleton
import proofs.«409824_j14431090114657_1_alg».proof.Proof.Gen.Kernel.Launch
import proofs.«409824_j14431090114657_1_alg».proof.Proof.Gen.Kernel.Points
import proofs.«409824_j14431090114657_1_alg».proof.Proof.Gen.Kernel.Frame
import proofs.«409824_j14431090114657_1_alg».proof.Proof.Gen.KernelIdeal
import proofs.«409824_j14431090114657_1_alg».proof.Proof.Gen.KernelIdeal.Skeleton
import proofs.«409824_j14431090114657_1_alg».proof.Proof.Gen.KernelIdeal.Launch
import proofs.«409824_j14431090114657_1_alg».proof.Proof.Gen.KernelIdeal.Points
import proofs.«409824_j14431090114657_1_alg».proof.Proof.Gen.KernelIdeal.Frame
import proofs.«409824_j14431090114657_1_alg».proof.Proof.Gen.ReferenceIdeal
import proofs.«409824_j14431090114657_1_alg».proof.Proof.Gen.ReferenceIdeal.Run
import proofs.«409824_j14431090114657_1_alg».proof.Proof.Gen.Pre_finite_inputs
import proofs.«409824_j14431090114657_1_alg».proof.Proof.KernelRun
import proofs.«409824_j14431090114657_1_alg».proof.Proof.Chain
import proofs.«409824_j14431090114657_1_alg».proof.Proof.PreCol
import proofs.«409824_j14431090114657_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at one function of the arguments: the kernel's by following its run
    from boundary to boundary, the reference's by its run's composed term, the two functions equal because every
    column index names a row of the table (read off the precondition). -/
theorem algebraic : Cert.algebraic_KernelIdeal_ReferenceIdeal := by
  intro m ρ m' ρ' hpre hagree
  have hcol : ∀ (c : Dev Cert.KernelIdeal.nD) (e : Fin 4000000),
      (Cert.KernelIdeal.Chain.cols m c (ValueIdx.ix1 e)).toNat < 400000 :=
    fun c e => Cert.PreCol.col_inRange _ _ _ _ (hpre c) e
  refine ⟨fun c => Cert.KernelIdeal.Chain.out m c, ?_, ?_⟩
  · exact (θ_run Cert.KernelIdeal.defs _ _).mono
      (fun r h c => ⟨(h c).1.trans (Cert.KernelIdeal.Chain.result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3⟩ := hagree c
    show _ = Cert.KernelIdeal.Chain.out m c
    rw [Cert.Final.out_eq m c (hcol c)]
    refine (Cert.Final.ref_eq m' c).trans ?_
    rw [h0, h1, h2, h3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
